-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x512x512 : Shape := ⟨3, ![16, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x8x512x512 .f32) (main_arg1 : IVec S16x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 8#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S16x8x512x512 : Shape := ⟨4, ![16, 8, 512, 512]⟩
abbrev S16x512x512 : Shape := ⟨3, ![16, 512, 512]⟩
abbrev S16x8 : Shape := ⟨2, ![16, 8]⟩
abbrev S16 : Shape := ⟨1, ![16]⟩
abbrev S16x8x8x512 : Shape := ⟨4, ![16, 8, 8, 512]⟩
abbrev S16x8x512 : Shape := ⟨3, ![16, 8, 512]⟩
abbrev S16x1x8x512 : Shape := ⟨4, ![16, 1, 8, 512]⟩
abbrev S16x8x8 : Shape := ⟨3, ![16, 8, 8]⟩
abbrev S_ : Shape := ⟨0, ![]⟩
abbrev S16x7 : Shape := ⟨2, ![16, 7]⟩

abbrev nBuf : Space → Nat
  | .hbm => 42
  | .vmem => 8
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S16x8, .f32⟩
  | .hbm, ⟨3, _⟩ => ⟨S16x8, .f32⟩
  | .hbm, ⟨4, _⟩ => ⟨S16x8, .f32⟩
  | .hbm, ⟨5, _⟩ => ⟨S16, .f32⟩
  | .hbm, ⟨6, _⟩ => ⟨S16x8, .f32⟩
  | .hbm, ⟨7, _⟩ => ⟨S16x8, .f32⟩
  | .hbm, ⟨8, _⟩ => ⟨S_, .f32⟩
  | .hbm, ⟨9, _⟩ => ⟨S16x8, .f32⟩
  | .hbm, ⟨10, _⟩ => ⟨S16x8, .f32⟩
  | .hbm, ⟨11, _⟩ => ⟨S_, .f32⟩
  | .hbm, ⟨12, _⟩ => ⟨S16x8, .f32⟩
  | .hbm, ⟨13, _⟩ => ⟨S16x8, .f32⟩
  | .hbm, ⟨14, _⟩ => ⟨S_, .f32⟩
  | .hbm, ⟨15, _⟩ => ⟨S16x8, .f32⟩
  | .hbm, ⟨16, _⟩ => ⟨S16x8, .f32⟩
  | .hbm, ⟨17, _⟩ => ⟨S16x8, .f32⟩
  | .hbm, ⟨18, _⟩ => ⟨S16x8, .f32⟩
  | .hbm, ⟨19, _⟩ => ⟨S_, .f32⟩
  | .hbm, ⟨20, _⟩ => ⟨S16x8, .f32⟩
  | .hbm, ⟨21, _⟩ => ⟨S16x8, .f32⟩
  | .hbm, ⟨22, _⟩ => ⟨S_, .f32⟩
  | .hbm, ⟨23, _⟩ => ⟨S16x8, .f32⟩
  | .hbm, ⟨24, _⟩ => ⟨S16x8, .f32⟩
  | .hbm, ⟨25, _⟩ => ⟨S16x8, .f32⟩
  | .hbm, ⟨26, _⟩ => ⟨S16x7, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S16x8x8x512, .f32⟩
  | .local _ .vmem, ⟨1, _⟩ => ⟨S16x8x8x512, .f32⟩
  | .local _ .vmem, ⟨2, _⟩ => ⟨S16x8x512, .i32⟩
  | .local _ .vmem, ⟨3, _⟩ => ⟨S16x8x512, .i32⟩
  | .local _ .vmem, ⟨4, _⟩ => ⟨S16x8, .f32⟩
  | .local _ .vmem, ⟨5, _⟩ => ⟨S16x8, .f32⟩
  | .local _ .vmem, ⟨6, _⟩ => ⟨S16x8, .f32⟩
  | .local _ .vmem, ⟨7, _⟩ => ⟨S16, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_cst_10 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16x8x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S16x8_S16x8_0_0 : ∀ a, (![0, 0] : Fin 2 → Nat) a + S16x8.size a ≤ S16x8.size a
  h_S16x8 : 0 < S16x8.numel
  inb_S16_S16_0 : ∀ a, (![0] : Fin 1 → Nat) a + S16.size a ≤ S16.size a
  h_S16 : 0 < S16.numel
  inb_S16x8x8x512_S16x8x8x512_0_0_0_0 : ∀ a, (![0, 0, 0, 0] : Fin 4 → Nat) a + S16x8x8x512.size a ≤ S16x8x8x512.size a
  h_S16x8x8x512 : 0 < S16x8x8x512.numel
  inb_S16x8x512_S16x8x512_0_0_0 : ∀ a, (![0, 0, 0] : Fin 3 → Nat) a + S16x8x512.size a ≤ S16x8x512.size a
  h_S16x8x512 : 0 < S16x8x512.numel
  reduces_S16x8x8x512_S16x8x512 : S16x8x8x512.Reduces [1] S16x8x512
  shapeCasts_S16x8x512_S16x1x8x512 : S16x8x512.ShapeCasts S16x1x8x512
  broadcasts_S16x1x8x512_S16x8x8x512 : S16x1x8x512.Broadcasts S16x8x8x512
  iota_S16x8x8x512_d1_w32 : S16x8x8x512.Iotas .tc 32 [1]
  reduces_S16x8x8x512_S16x8x8 : S16x8x8x512.Reduces [3] S16x8x8
  reduces_S16x8x8_S16x8 : S16x8x8.Reduces [2] S16x8
  natLt_1_32 : 1 < 32
  reduces_S16x8x512_S16x8 : S16x8x512.Reduces [2] S16x8
  reduces_S16x8_S16 : S16x8.Reduces [1] S16
  shapeCasts_S16x8_S16x8 : S16x8.ShapeCasts S16x8
  shapeCasts_S16_S16 : S16.ShapeCasts S16
  bcast_S_S16x8 : S_.BroadcastsInDim S16x8 (![] : Fin 0 → Fin S16x8.rank)
  slices_S16x8_S16x7_0_1 : S16x8.Slices ![0, 1] S16x7
  reducesTo_S16x7_S_d0_1 : S16x7.ReducesTo [0, 1] S_
  h_S_ : 0 < S_.numel
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x8x512.size a ≤ S16x8x512x512.size a
  hwx0_0 : ∀ i : grid0.Coords, EltTy.bits .f32 = 32 ∨ (Rect.block (s := S16x8x512x512) S16x8x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x512.size a ≤ S16x512x512.size a
  hwx0_1 : ∀ i : grid0.Coords, EltTy.bits .i32 = 32 ∨ (Rect.block (s := S16x512x512) S16x8x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S16x8.size a
  hwx0_4 : ∀ i : grid0.Coords, EltTy.bits .f32 = 32 ∨ (Rect.block (s := S16x8) S16x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)

variable [Facts₀]

abbrev win0_0 : Pipeline.Window sig grid0 :=
  Pipeline.Window.ofSpec (Memref.whole main_arg0) S16x8x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x8.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x8.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S16x8.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S16.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S16x512x512 : Shape := ⟨3, ![16, 512, 512]⟩
abbrev S_ : Shape := ⟨0, ![]⟩
abbrev S16x1x512x512 : Shape := ⟨4, ![16, 1, 512, 512]⟩
abbrev S8 : Shape := ⟨1, ![8]⟩
abbrev S1x8x1x1 : Shape := ⟨4, ![1, 8, 1, 1]⟩
abbrev S16x8 : Shape := ⟨2, ![16, 8]⟩
abbrev S16x7 : Shape := ⟨2, ![16, 7]⟩
abbrev S16x1x512x512x1 : Shape := ⟨5, ![16, 1, 512, 512, 1]⟩
abbrev S1 : Shape := ⟨1, ![1]⟩
abbrev S1x1x1x1x1 : Shape := ⟨5, ![1, 1, 1, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x8x512x512, .f32⟩
  | .hbm, ⟨9, _⟩ => ⟨S16x8x512x512, .f32⟩
  | .hbm, ⟨10, _⟩ => ⟨S16x8x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x8x512x512, .f32⟩
  | .hbm, ⟨15, _⟩ => ⟨S16x8x512x512, .f32⟩
  | .hbm, ⟨16, _⟩ => ⟨S16x1x512x512, .i32⟩
  | .hbm, ⟨17, _⟩ => ⟨S8, .i32⟩
  | .hbm, ⟨18, _⟩ => ⟨S1x8x1x1, .i32⟩
  | .hbm, ⟨19, _⟩ => ⟨S16x8x512x512, .i32⟩
  | .hbm, ⟨20, _⟩ => ⟨S16x8x512x512, .i32⟩
  | .hbm, ⟨21, _⟩ => ⟨S16x8x512x512, .i1⟩
  | .hbm, ⟨22, _⟩ => ⟨S_, .f32⟩
  | .hbm, ⟨23, _⟩ => ⟨S_, .f32⟩
  | .hbm, ⟨24, _⟩ => ⟨S16x8x512x512, .f32⟩
  | .hbm, ⟨25, _⟩ => ⟨S16x8x512x512, .f32⟩
  | .hbm, ⟨26, _⟩ => ⟨S_, .f32⟩
  | .hbm, ⟨27, _⟩ => ⟨S16x8, .f32⟩
  | .hbm, ⟨28, _⟩ => ⟨S_, .f32⟩
  | .hbm, ⟨29, _⟩ => ⟨S16x8, .f32⟩
  | .hbm, ⟨30, _⟩ => ⟨S16x8x512x512, .i32⟩
  | .hbm, ⟨31, _⟩ => ⟨S_, .i32⟩
  | .hbm, ⟨32, _⟩ => ⟨S16x8, .i32⟩
  | .hbm, ⟨33, _⟩ => ⟨S16x8, .f32⟩
  | .hbm, ⟨34, _⟩ => ⟨S16x8, .f32⟩
  | .hbm, ⟨35, _⟩ => ⟨S16x8, .f32⟩
  | .hbm, ⟨36, _⟩ => ⟨S_, .f32⟩
  | .hbm, ⟨37, _⟩ => ⟨S16x8, .f32⟩
  | .hbm, ⟨38, _⟩ => ⟨S16x8, .f32⟩
  | .hbm, ⟨39, _⟩ => ⟨S_, .f32⟩
  | .hbm, ⟨40, _⟩ => ⟨S16x8, .f32⟩
  | .hbm, ⟨41, _⟩ => ⟨S16x8, .f32⟩
  | .hbm, ⟨42, _⟩ => ⟨S_, .f32⟩
  | .hbm, ⟨43, _⟩ => ⟨S16x8, .f32⟩
  | .hbm, ⟨44, _⟩ => ⟨S16x8, .f32⟩
  | .hbm, ⟨45, _⟩ => ⟨S16x8, .f32⟩
  | .hbm, ⟨46, _⟩ => ⟨S16x8, .f32⟩
  | .hbm, ⟨47, _⟩ => ⟨S_, .f32⟩
  | .hbm, ⟨48, _⟩ => ⟨S16x8, .f32⟩
  | .hbm, ⟨49, _⟩ => ⟨S16x8, .f32⟩
  | .hbm, ⟨50, _⟩ => ⟨S_, .f32⟩
  | .hbm, ⟨51, _⟩ => ⟨S16x8, .f32⟩
  | .hbm, ⟨52, _⟩ => ⟨S16x8, .f32⟩
  | .hbm, ⟨53, _⟩ => ⟨S16x8, .f32⟩
  | .hbm, ⟨54, _⟩ => ⟨S16x7, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x512x512, .f32⟩
  | .hbm, ⟨63, _⟩ => ⟨S_, .f32⟩
  | .hbm, ⟨64, _⟩ => ⟨S16x512x512, .f32⟩
  | .hbm, ⟨65, _⟩ => ⟨S16x512x512, .f32⟩
  | .hbm, ⟨66, _⟩ => ⟨S16x1x512x512, .f32⟩
  | .hbm, ⟨67, _⟩ => ⟨S16x8x512x512, .f32⟩
  | .hbm, ⟨68, _⟩ => ⟨S16x8x512x512, .f32⟩
  | .hbm, ⟨69, _⟩ => ⟨S16x8x512x512, .f32⟩
  | .hbm, ⟨70, _⟩ => ⟨S_, .f32⟩
  | .hbm, ⟨71, _⟩ => ⟨S16x512x512, .f32⟩
  | .hbm, ⟨72, _⟩ => ⟨S16x1x512x512, .f32⟩
  | .hbm, ⟨73, _⟩ => ⟨S16x1x512x512, .f32⟩
  | .hbm, ⟨74, _⟩ => ⟨S16x8x512x512, .f32⟩
  | .hbm, ⟨75, _⟩ => ⟨S16x8x512x512, .f32⟩
  | .hbm, ⟨76, _⟩ => ⟨S16x1x512x512, .i32⟩
  | .hbm, ⟨77, _⟩ => ⟨S_, .i32⟩
  | .hbm, ⟨78, _⟩ => ⟨S16x1x512x512, .i32⟩
  | .hbm, ⟨79, _⟩ => ⟨S16x1x512x512, .i1⟩
  | .hbm, ⟨80, _⟩ => ⟨S_, .i32⟩
  | .hbm, ⟨81, _⟩ => ⟨S16x1x512x512, .i32⟩
  | .hbm, ⟨82, _⟩ => ⟨S16x1x512x512, .i32⟩
  | .hbm, ⟨83, _⟩ => ⟨S16x1x512x512, .i32⟩
  | .hbm, ⟨84, _⟩ => ⟨S16x1x512x512x1, .i32⟩
  | .hbm, ⟨85, _⟩ => ⟨S1, .i32⟩
  | .hbm, ⟨86, _⟩ => ⟨S_, .i32⟩
  | .hbm, ⟨87, _⟩ => ⟨S16x1x512x512x1, .i32⟩
  | .hbm, ⟨88, _⟩ => ⟨S16x1x512x512x1, .i1⟩
  | .hbm, ⟨89, _⟩ => ⟨S1x1x1x1x1, .i32⟩
  | .hbm, ⟨90, _⟩ => ⟨S16x1x512x512x1, .i32⟩
  | .hbm, ⟨91, _⟩ => ⟨S16x1x512x512x1, .i1⟩
  | .hbm, ⟨92, _⟩ => ⟨S16x1x512x512x1, .i1⟩
  | .hbm, ⟨93, _⟩ => ⟨S_, .i1⟩
  | .hbm, ⟨94, _⟩ => ⟨S16x1x512x512, .i1⟩
  | .hbm, ⟨95, _⟩ => ⟨S16x1x512x512, .f32⟩
  | .hbm, ⟨96, _⟩ => ⟨S_, .f32⟩
  | .hbm, ⟨97, _⟩ => ⟨S16x1x512x512, .f32⟩
  | .hbm, ⟨98, _⟩ => ⟨S16x1x512x512, .f32⟩
  | .hbm, ⟨99, _⟩ => ⟨S16x1x512x512, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v42 : Ref sig .tc := ⟨.hbm, 75, rfl⟩
abbrev main_v43 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v44 : Ref sig .tc := ⟨.hbm, 98, rfl⟩
abbrev main_v45 : Ref sig .tc := ⟨.hbm, 99, rfl⟩
abbrev main_cst_13 : Ref sig .tc := ⟨.hbm, 100, rfl⟩
abbrev main_v46 : Ref sig .tc := ⟨.hbm, 101, rfl⟩
abbrev main_cst_14 : Ref sig .tc := ⟨.hbm, 102, rfl⟩
abbrev main_v47 : Ref sig .tc := ⟨.hbm, 103, rfl⟩
abbrev main_cst_15 : Ref sig .tc := ⟨.hbm, 104, rfl⟩
abbrev main_v48 : Ref sig .tc := ⟨.hbm, 105, rfl⟩
abbrev main_cst_16 : Ref sig .tc := ⟨.hbm, 106, rfl⟩
abbrev main_v49 : Ref sig .tc := ⟨.hbm, 107, rfl⟩
abbrev main_v50 : Ref sig .tc := ⟨.hbm, 108, rfl⟩

abbrev nD : Nat := 1
abbrev τ : Topo := Topo.v7x

variable {F : FTy → Type} [FloatOps F]

class Facts₀ : Prop where
  reducesTo_S16x8x512x512_S16x512x512_d1 : S16x8x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x8x512x512_0_1_2_3 : S16x1x512x512.BroadcastsInDim S16x8x512x512 (![0, 1, 2, 3] : Fin 4 → Fin S16x8x512x512.rank)
  bcast_S8_S1x8x1x1_1 : S8.BroadcastsInDim S1x8x1x1 (![1] : Fin 1 → Fin S1x8x1x1.rank)
  bcast_S1x8x1x1_S16x8x512x512_0_1_2_3 : S1x8x1x1.BroadcastsInDim S16x8x512x512 (![0, 1, 2, 3] : Fin 4 → Fin S16x8x512x512.rank)
  bcast_S_S16x8x512x512 : S_.BroadcastsInDim S16x8x512x512 (![] : Fin 0 → Fin S16x8x512x512.rank)
  reducesTo_S16x8x512x512_S16x8_d2_3 : S16x8x512x512.ReducesTo [2, 3] S16x8
  natLt_1_32 : 1 < 32
  bcast_S_S16x8 : S_.BroadcastsInDim S16x8 (![] : Fin 0 → Fin S16x8.rank)
  slices_S16x8_S16x7_0_1 : S16x8.Slices ![0, 1] S16x7
  reducesTo_S16x7_S_d0_1 : S16x7.ReducesTo [0, 1] S_
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  reducesTo_S16x1x512x512_S_d0_1_2_3 : S16x1x512x512.ReducesTo [0, 1, 2, 3] S_
  gather_S16x8x512x512_S16x1x512x512x1_S16x1x512x512_n_1_023_023_1_4_1111_wf : GatherDims.WF S16x8x512x512 S16x1x512x512x1 S16x1x512x512 [] [1] [0, 2, 3] [1] [0, 2, 3] 4 ![1, 1, 1, 1]

variable [Facts₀]

def gather_S16x8x512x512_S16x1x512x512x1_S16x1x512x512_n_1_023_023_1_4_1111 : GatherDims S16x8x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x8x512x512_S16x1x512x512x1_S16x1x512x512_n_1_023_023_1_4_1111_wf

class Facts : Prop extends Facts₀ where

variable [Facts]
-- ==== Proof.KernelAcc.lean ====
/-
  The kernel's four accumulators over the grid, at any float instance: what each holds after grid point `n` is
  what it held after the point before with the point's part added, from zeros at the first point; the result
  arrays end at what the accumulators hold after the last point.
-/
import proofs.«424131_j11587821765242_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-! ## Zero offsets, however many axes -/

private theorem hz4 : (![0, 0, 0, 0] : Fin 4 → Nat) = fun _ => 0 := funext fun a => by fin_cases a <;> rfl
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-! ## What one point leaves in each accumulator

At a later point (case B) each accumulator is loaded whole and stored whole once: it ends at `acc + part`, the part
a function of the point's two input blocks. At the first point (case A) each is first stored whole with zeros, read
back, and stored whole again: it ends at `0 + part`. Every load and store is through the whole-shape rectangle at zero
offsets, so a load reads the contents and the last store leaves its payload. -/

/-- Later point, first accumulator: the old contents plus the part of the two input blocks. -/
private theorem out_B_2 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : ¬cond0_0 i)
    (x0 : Vec F S16x8x8x512 .f32) (x1 : Vec F S16x8x512 .i32) (xo2 xo3 xo4 : Vec F S16x8 .f32) (xo5 : Vec F S16 .f32) :
    out0_B_2 c i a1 h1 a2 h2 a3 h3 a4 h4 a5 h5 a6 h6 hc x0 x1 xo2 xo3 xo4 xo5 = k0_pay1 (k0_pay14 x0 x1) xo2 := by
  unfold out0_B_2
  rw [View.read_writes_eq_canon _ _ _ (cover0_B_2 c i a1 h1 a2 h2 a3 h3 a4 h4 a5 h5 a6 h6 hc x0 x1 xo2 xo3 xo4 xo5)]
  unfold kernelRun0_B
  dsimp only
  sl_unfold_words
  rw [View.canon_unit_zero (S := S16x8) hz2]
  simp only [View.readAt_eq_ld, h1.read_unread, h2.read_unread, h3.read_unread, View.ld_unit_zero (S := S16x8x8x512) hz4,
    View.ld_unit_zero (S := S16x8x512) hz3, View.ld_unit_zero (S := S16x8) hz2]

/-- Later point, second accumulator: the old contents plus the part of the first input block. -/
private theorem out_B_3 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : ¬cond0_0 i)
    (x0 : Vec F S16x8x8x512 .f32) (x1 : Vec F S16x8x512 .i32) (xo2 xo3 xo4 : Vec F S16x8 .f32) (xo5 : Vec F S16 .f32) :
    out0_B_3 c i a1 h1 a2 h2 a3 h3 a4 h4 a5 h5 a6 h6 hc x0 x1 xo2 xo3 xo4 xo5 = k0_pay2 (k0_pay15 x0) xo3 := by
  unfold out0_B_3
  rw [View.read_writes_eq_canon _ _ _ (cover0_B_3 c i a1 h1 a2 h2 a3 h3 a4 h4 a5 h5 a6 h6 hc x0 x1 xo2 xo3 xo4 xo5)]
  unfold kernelRun0_B
  dsimp only
  sl_unfold_words
  rw [View.canon_unit_zero (S := S16x8) hz2]
  simp only [View.readAt_eq_ld, h1.read_unread, h2.read_unread, h4.read_unread, View.ld_unit_zero (S := S16x8x8x512) hz4,
    View.ld_unit_zero (S := S16x8x512) hz3, View.ld_unit_zero (S := S16x8) hz2]

/-- Later point, third accumulator: the old contents plus the part of the second input block. -/
private theorem out_B_4 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : ¬cond0_0 i)
    (x0 : Vec F S16x8x8x512 .f32) (x1 : Vec F S16x8x512 .i32) (xo2 xo3 xo4 : Vec F S16x8 .f32) (xo5 : Vec F S16 .f32) :
    out0_B_4 c i a1 h1 a2 h2 a3 h3 a4 h4 a5 h5 a6 h6 hc x0 x1 xo2 xo3 xo4 xo5 = k0_pay3 (k0_pay16 x1) xo4 := by
  unfold out0_B_4
  rw [View.read_writes_eq_canon _ _ _ (cover0_B_4 c i a1 h1 a2 h2 a3 h3 a4 h4 a5 h5 a6 h6 hc x0 x1 xo2 xo3 xo4 xo5)]
  unfold kernelRun0_B
  dsimp only
  sl_unfold_words
  rw [View.canon_unit_zero (S := S16x8) hz2]
  simp only [View.readAt_eq_ld, h1.read_unread, h2.read_unread, h5.read_unread, View.ld_unit_zero (S := S16x8x8x512) hz4,
    View.ld_unit_zero (S := S16x8x512) hz3, View.ld_unit_zero (S := S16x8) hz2]

/-- Later point, fourth accumulator: the old contents plus the part of the two input blocks. -/
private theorem out_B_5 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : ¬cond0_0 i)
    (x0 : Vec F S16x8x8x512 .f32) (x1 : Vec F S16x8x512 .i32) (xo2 xo3 xo4 : Vec F S16x8 .f32) (xo5 : Vec F S16 .f32) :
    out0_B_5 c i a1 h1 a2 h2 a3 h3 a4 h4 a5 h5 a6 h6 hc x0 x1 xo2 xo3 xo4 xo5 = k0_pay4 (k0_pay17 x0 x1) xo5 := by
  unfold out0_B_5
  rw [View.read_writes_eq_canon _ _ _ (cover0_B_5 c i a1 h1 a2 h2 a3 h3 a4 h4 a5 h5 a6 h6 hc x0 x1 xo2 xo3 xo4 xo5)]
  unfold kernelRun0_B
  dsimp only
  sl_unfold_words
  rw [View.canon_unit_zero (S := S16) hz1]
  simp only [View.readAt_eq_ld, h1.read_unread, h2.read_unread, h6.read_unread, View.ld_unit_zero (S := S16x8x8x512) hz4,
    View.ld_unit_zero (S := S16x8x512) hz3, View.ld_unit_zero (S := S16) hz1]

/-- First point, first accumulator: the zeros plus the part of the two input blocks. -/
private theorem out_A_2 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : cond0_0 i)
    (x0 : Vec F S16x8x8x512 .f32) (x1 : Vec F S16x8x512 .i32) :
    out0_A_2 c i a1 h1 a2 h2 a3 h3 a4 h4 a5 h5 a6 h6 hc x0 x1 = k0_pay1 (k0_pay14 x0 x1) (k0_pay5 (F := F)) := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_cons_unit_zero (S := S16x8) hz2, View.readCov_unit_zero (S := S16x8) _ hz2]
  simp only [View.readAt_eq_ld, h1.read_unread, h2.read_unread, View.ld_unit_zero (S := S16x8x8x512) hz4,
    View.ld_unit_zero (S := S16x8x512) hz3]

/-- First point, second accumulator: the zeros plus the part of the first input block. -/
private theorem out_A_3 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : cond0_0 i)
    (x0 : Vec F S16x8x8x512 .f32) (x1 : Vec F S16x8x512 .i32) :
    out0_A_3 c i a1 h1 a2 h2 a3 h3 a4 h4 a5 h5 a6 h6 hc x0 x1 = k0_pay2 (k0_pay15 x0) (k0_pay6 (F := F)) := by
  unfold out0_A_3
  rw [View.read_writes_eq_canon _ _ _ (cover0_A_3 c i a1 h1 a2 h2 a3 h3 a4 h4 a5 h5 a6 h6 hc x0 x1)]
  unfold kernelRun0_A
  dsimp only
  sl_unfold_words
  rw [View.canon_cons_unit_zero (S := S16x8) hz2, View.readCov_unit_zero (S := S16x8) _ hz2]
  simp only [View.readAt_eq_ld, h1.read_unread, h2.read_unread, View.ld_unit_zero (S := S16x8x8x512) hz4,
    View.ld_unit_zero (S := S16x8x512) hz3]

/-- First point, third accumulator: the zeros plus the part of the second input block. -/
private theorem out_A_4 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : cond0_0 i)
    (x0 : Vec F S16x8x8x512 .f32) (x1 : Vec F S16x8x512 .i32) :
    out0_A_4 c i a1 h1 a2 h2 a3 h3 a4 h4 a5 h5 a6 h6 hc x0 x1 = k0_pay3 (k0_pay16 x1) (k0_pay7 (F := F)) := by
  unfold out0_A_4
  rw [View.read_writes_eq_canon _ _ _ (cover0_A_4 c i a1 h1 a2 h2 a3 h3 a4 h4 a5 h5 a6 h6 hc x0 x1)]
  unfold kernelRun0_A
  dsimp only
  sl_unfold_words
  rw [View.canon_cons_unit_zero (S := S16x8) hz2, View.readCov_unit_zero (S := S16x8) _ hz2]
  simp only [View.readAt_eq_ld, h1.read_unread, h2.read_unread, View.ld_unit_zero (S := S16x8x8x512) hz4,
    View.ld_unit_zero (S := S16x8x512) hz3]

/-- First point, fourth accumulator: the zeros plus the part of the two input blocks. -/
private theorem out_A_5 (c : Dev nD) (i : grid0.Coords) (a1 : Memref sig .tc .vmem S16x8x8x512 .f32) (h1 : a1.IsWhole)
    (a2 : Memref sig .tc .vmem S16x8x512 .i32) (h2 : a2.IsWhole) (a3 : Memref sig .tc .vmem S16x8 .f32) (h3 : a3.IsWhole)
    (a4 : Memref sig .tc .vmem S16x8 .f32) (h4 : a4.IsWhole) (a5 : Memref sig .tc .vmem S16x8 .f32) (h5 : a5.IsWhole)
    (a6 : Memref sig .tc .vmem S16 .f32) (h6 : a6.IsWhole) (hc : cond0_0 i)
    (x0 : Vec F S16x8x8x512 .f32) (x1 : Vec F S16x8x512 .i32) :
    out0_A_5 c i a1 h1 a2 h2 a3 h3 a4 h4 a5 h5 a6 h6 hc x0 x1 = k0_pay4 (k0_pay17 x0 x1) (k0_pay8 (F := F)) := by
  unfold out0_A_5
  rw [View.read_writes_eq_canon _ _ _ (cover0_A_5 c i a1 h1 a2 h2 a3 h3 a4 h4 a5 h5 a6 h6 hc x0 x1)]
  unfold kernelRun0_A
  dsimp only
  sl_unfold_words
  rw [View.canon_cons_unit_zero (S := S16) hz1, View.readCov_unit_zero (S := S16) _ hz1]
  simp only [View.readAt_eq_ld, h1.read_unread, h2.read_unread, View.ld_unit_zero (S := S16x8x8x512) hz4,
    View.ld_unit_zero (S := S16x8x512) hz3]

/-- The block of scores the body reads at point `t`. -/
abbrev xblk (c : Dev nD) (t : Fin cfg0.N) : Vec F S16x8x8x512 .f32 := iblk m c 0 t
/-- The block of labels the body reads at point `t`. -/
abbrev yblk (c : Dev nD) (t : Fin cfg0.N) : Vec F S16x8x512 .i32 := iblk m c 1 t

/-- The four accumulators after point `n`. -/
def chain (c : Dev nD) : (n : ℕ) → n < cfg0.N → Vec F S16x8 .f32 × Vec F S16x8 .f32 × Vec F S16x8 .f32 × Vec F S16 .f32
  | 0, h => (k0_pay1 (k0_pay14 (xblk m c ⟨0, h⟩) (yblk m c ⟨0, h⟩)) (k0_pay5 (F := F)),
             k0_pay2 (k0_pay15 (xblk m c ⟨0, h⟩)) (k0_pay6 (F := F)),
             k0_pay3 (k0_pay16 (yblk m c ⟨0, h⟩)) (k0_pay7 (F := F)),
             k0_pay4 (k0_pay17 (xblk m c ⟨0, h⟩) (yblk m c ⟨0, h⟩)) (k0_pay8 (F := F)))
  | n + 1, h => (k0_pay1 (k0_pay14 (xblk m c ⟨n + 1, h⟩) (yblk m c ⟨n + 1, h⟩)) (chain c n (Nat.lt_of_succ_lt h)).1,
                 k0_pay2 (k0_pay15 (xblk m c ⟨n + 1, h⟩)) (chain c n (Nat.lt_of_succ_lt h)).2.1,
                 k0_pay3 (k0_pay16 (yblk m c ⟨n + 1, h⟩)) (chain c n (Nat.lt_of_succ_lt h)).2.2.1,
                 k0_pay4 (k0_pay17 (xblk m c ⟨n + 1, h⟩) (yblk m c ⟨n + 1, h⟩)) (chain c n (Nat.lt_of_succ_lt h)).2.2.2)

/-- At the first point the four buffers hold the zeros with the point's parts added. -/
private theorem outsAt_first (c : Dev nD) (t : Fin cfg0.N) (h0 : t.val % 64 = 0) :
    outsAt0 m c t.val t.isLt
      = (k0_pay1 (k0_pay14 (xblk m c t) (yblk m c t)) (k0_pay5 (F := F)),
         k0_pay2 (k0_pay15 (xblk m c t)) (k0_pay6 (F := F)),
         k0_pay3 (k0_pay16 (yblk m c t)) (k0_pay7 (F := F)),
         k0_pay4 (k0_pay17 (xblk m c t) (yblk m c t)) (k0_pay8 (F := F))) := by
  rw [outsAt0_A m c t h0]
  rw [out_A_2 c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t),
    out_A_3 c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t),
    out_A_4 c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t),
    out_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t)]

/-- At a later point they hold what the point before left with the point's parts added. -/
private theorem outsAt_later (c : Dev nD) (t : Fin cfg0.N) (h0 : ¬t.val % 64 = 0) :
    outsAt0 m c t.val t.isLt
      = (k0_pay1 (k0_pay14 (xblk m c t) (yblk m c t)) (outsAt0 m c (t.val - 1) (Nat.lt_of_le_of_lt (Nat.sub_le _ _) t.isLt)).1,
         k0_pay2 (k0_pay15 (xblk m c t)) (outsAt0 m c (t.val - 1) (Nat.lt_of_le_of_lt (Nat.sub_le _ _) t.isLt)).2.1,
         k0_pay3 (k0_pay16 (yblk m c t)) (outsAt0 m c (t.val - 1) (Nat.lt_of_le_of_lt (Nat.sub_le _ _) t.isLt)).2.2.1,
         k0_pay4 (k0_pay17 (xblk m c t) (yblk m c t)) (outsAt0 m c (t.val - 1) (Nat.lt_of_le_of_lt (Nat.sub_le _ _) t.isLt)).2.2.2) := by
  rw [outsAt0_B m c t h0]
  rw [out_B_2 c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2,
    out_B_3 c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2,
    out_B_4 c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2,
    out_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2]

/-- What the staging buffers hold after point `n` is the accumulators' chain. -/
theorem outsAt_eq (c : Dev nD) : ∀ (n : ℕ) (h : n < cfg0.N), outsAt0 m c n h = chain m c n h
  | 0, h => outsAt_first m c ⟨0, h⟩ (Nat.zero_mod 64)
  | n + 1, h => by
    have hN : cfg0.N = 64 := N_0
    have hB : ¬(⟨n + 1, h⟩ : Fin cfg0.N).val % 64 = 0 := by dsimp only; omega
    have ih : outsAt0 m c ((⟨n + 1, h⟩ : Fin cfg0.N).val - 1)
          (Nat.lt_of_le_of_lt (Nat.sub_le _ _) (⟨n + 1, h⟩ : Fin cfg0.N).isLt)
        = chain m c n (Nat.lt_of_succ_lt h) := outsAt_eq c n (Nat.lt_of_succ_lt h)
    refine (outsAt_later m c ⟨n + 1, h⟩ hB).trans ?_
    rw [ih]
    rfl

theorem h63 : 63 < cfg0.N := by rw [show cfg0.N = 64 from N_0]; decide

/-- The accumulators after the last point. -/
abbrev last (c : Dev nD) : Vec F S16x8 .f32 × Vec F S16x8 .f32 × Vec F S16x8 .f32 × Vec F S16 .f32 := chain m c 63 h63

/-- The last point of the grid. -/
private abbrev tlast : Fin cfg0.N := ⟨63, h63⟩

/-! ## The one write-back

Each result array is written back at the last point only, and its block index is zero on every axis: the block at
zero offsets of the array's own sizes is the whole array, so the write-back leaves the accumulator's contents. -/

private theorem flushed2_eq (c : Dev nD) (t : Fin cfg0.N) (hf : (cfg0.win 2).flush t = true) :
    (dats m 0 c).flushed 2 t = ((cfg0.win 2).blk t).view.read (Elt F) (last m c).1 := by
  have hN : cfg0.N = 64 := N_0
  have h3 : t.val = 63 := by have := (flush0_2 t).mp hf; have := t.isLt; omega
  obtain rfl : t = tlast := Fin.ext h3
  show (cfg0.win 2).cut (grid0.coords tlast) ((dats m 0 c).after 2 tlast) = _
  rw [after0_2, outsAt_eq]
  have hz' : (fun a => win0_2.index tlast a * main_v0_0.ty.shape.size a) = fun _ => 0 := funext fun a => by fin_cases a <;> decide
  exact (Memref.read_access_unit_zero (Elt F) main_v0_0 hz' (fun a => by rw [congrFun hz' a]; simp) (last m c).1).symm

private theorem flushed3_eq (c : Dev nD) (t : Fin cfg0.N) (hf : (cfg0.win 3).flush t = true) :
    (dats m 0 c).flushed 3 t = ((cfg0.win 3).blk t).view.read (Elt F) (last m c).2.1 := by
  have hN : cfg0.N = 64 := N_0
  have h3 : t.val = 63 := by have := (flush0_3 t).mp hf; have := t.isLt; omega
  obtain rfl : t = tlast := Fin.ext h3
  show (cfg0.win 3).cut (grid0.coords tlast) ((dats m 0 c).after 3 tlast) = _
  rw [after0_3, outsAt_eq]
  have hz' : (fun a => win0_3.index tlast a * main_v0_1.ty.shape.size a) = fun _ => 0 := funext fun a => by fin_cases a <;> decide
  exact (Memref.read_access_unit_zero (Elt F) main_v0_1 hz' (fun a => by rw [congrFun hz' a]; simp) (last m c).2.1).symm

private theorem flushed4_eq (c : Dev nD) (t : Fin cfg0.N) (hf : (cfg0.win 4).flush t = true) :
    (dats m 0 c).flushed 4 t = ((cfg0.win 4).blk t).view.read (Elt F) (last m c).2.2.1 := by
  have hN : cfg0.N = 64 := N_0
  have h3 : t.val = 63 := by have := (flush0_4 t).mp hf; have := t.isLt; omega
  obtain rfl : t = tlast := Fin.ext h3
  show (cfg0.win 4).cut (grid0.coords tlast) ((dats m 0 c).after 4 tlast) = _
  rw [after0_4, outsAt_eq]
  have hz' : (fun a => win0_4.index tlast a * main_v0_2.ty.shape.size a) = fun _ => 0 := funext fun a => by fin_cases a <;> decide
  exact (Memref.read_access_unit_zero (Elt F) main_v0_2 hz' (fun a => by rw [congrFun hz' a]; simp) (last m c).2.2.1).symm

private theorem flushed5_eq (c : Dev nD) (t : Fin cfg0.N) (hf : (cfg0.win 5).flush t = true) :
    (dats m 0 c).flushed 5 t = ((cfg0.win 5).blk t).view.read (Elt F) (last m c).2.2.2 := by
  have hN : cfg0.N = 64 := N_0
  have h3 : t.val = 63 := by have := (flush0_5 t).mp hf; have := t.isLt; omega
  obtain rfl : t = tlast := Fin.ext h3
  show (cfg0.win 5).cut (grid0.coords tlast) ((dats m 0 c).after 5 tlast) = _
  rw [after0_5, outsAt_eq]
  have hz' : (fun a => win0_5.index tlast a * main_v0_3.ty.shape.size a) = fun _ => 0 := funext fun a => by fin_cases a <;> decide
  exact (Memref.read_access_unit_zero (Elt F) main_v0_3 hz' (fun a => by rw [congrFun hz' a]; simp) (last m c).2.2.2).symm

/-- The four result arrays after the run: the one write-back, after the last point, writes the whole array. -/
theorem final2 (c : Dev nD) : (dats m 0 c).arrAt 2 cfg0.N = (last m c).1 :=
  (dats m 0 c).arrAt_eq_of_cover 2 (last m c).1 (flushed2_eq m c) fun i =>
    ⟨tlast, (flush0_2 tlast).mpr rfl, by
      show i ∈ ((View.whole main_v0_0).slice (win0_2.rect tlast)).set
      rw [View.set_slice_whole, Rect.mem_set_unit]
      intro a
      have h0 : (i 0 : Nat) < 16 := (i 0).isLt
      have h1 : (i 1 : Nat) < 8 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 16 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from by decide +kernel, show win0_2.xsize (grid0.coords tlast) 1 = 8 from by decide +kernel]; omega⟩
theorem final3 (c : Dev nD) : (dats m 0 c).arrAt 3 cfg0.N = (last m c).2.1 :=
  (dats m 0 c).arrAt_eq_of_cover 3 (last m c).2.1 (flushed3_eq m c) fun i =>
    ⟨tlast, (flush0_3 tlast).mpr rfl, by
      show i ∈ ((View.whole main_v0_1).slice (win0_3.rect tlast)).set
      rw [View.set_slice_whole, Rect.mem_set_unit]
      intro a
      have h0 : (i 0 : Nat) < 16 := (i 0).isLt
      have h1 : (i 1 : Nat) < 8 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from by decide +kernel, show win0_3.xsize (grid0.coords tlast) 0 = 16 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from by decide +kernel, show win0_3.xsize (grid0.coords tlast) 1 = 8 from by decide +kernel]; omega⟩
theorem final4 (c : Dev nD) : (dats m 0 c).arrAt 4 cfg0.N = (last m c).2.2.1 :=
  (dats m 0 c).arrAt_eq_of_cover 4 (last m c).2.2.1 (flushed4_eq m c) fun i =>
    ⟨tlast, (flush0_4 tlast).mpr rfl, by
      show i ∈ ((View.whole main_v0_2).slice (win0_4.rect tlast)).set
      rw [View.set_slice_whole, Rect.mem_set_unit]
      intro a
      have h0 : (i 0 : Nat) < 16 := (i 0).isLt
      have h1 : (i 1 : Nat) < 8 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 16 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 8 from by decide +kernel]; omega⟩
theorem final5 (c : Dev nD) : (dats m 0 c).arrAt 5 cfg0.N = (last m c).2.2.2 :=
  (dats m 0 c).arrAt_eq_of_cover 5 (last m c).2.2.2 (flushed5_eq m c) fun i =>
    ⟨tlast, (flush0_5 tlast).mpr rfl, by
      show i ∈ ((View.whole main_v0_3).slice (win0_5.rect tlast)).set
      rw [View.set_slice_whole, Rect.mem_set_unit]
      intro a
      have h0 : (i 0 : Nat) < 16 := (i 0).isLt
      match a with
      | ⟨0, _⟩ => show win0_5.index tlast 0 * win0_5.size 0 ≤ (i 0 : Nat) ∧ (i 0 : Nat) < win0_5.index tlast 0 * win0_5.size 0 + win0_5.xsize (grid0.coords tlast) 0
                  rw [show win0_5.index tlast 0 * win0_5.size 0 = 0 from by decide +kernel, show win0_5.xsize (grid0.coords tlast) 0 = 16 from by decide +kernel]; omega⟩

end Cert.KernelIdeal.Acc

end
-- ==== Proof.Tail.lean ====
/-
  What both programs do with the four statistics once they are summed: the false positives and false negatives
  `ps - tp` and `cnt - tp`, the dice quotient `(2 tp + smooth) / (2 tp + fp + fn + smooth + eps)` per batch entry and
  class, its mean over the seven foreground classes of the sixteen batch entries taken from one, and the summed
  negative log-likelihood divided by the number of pixels, the two added with unit weights.  The same operations on
  the same words in both programs, so it is carried as ONE function of the four statistics and never opened.
-/
import Idealize.ShloMosaic.PureOps
import Idealize.ShloMosaic.Lib.StableHlo

noncomputable section

namespace Cert.DiceCE

open Idealize.ShloMosaic

/-- The loss from the statistics `tp`, `ps`, `cnt` (each `[16, 8]`) and the total negative log-likelihood (a scalar). -/
def lossOf {F : FTy → Type} [FloatOps F]
    (hb : (⟨0, ![]⟩ : Shape).BroadcastsInDim (⟨2, ![16, 8]⟩ : Shape) (![] : Fin 0 → Fin 2))
    (hs : (⟨2, ![16, 8]⟩ : Shape).Slices ![0, 1] (⟨2, ![16, 7]⟩ : Shape))
    (hr : (⟨2, ![16, 7]⟩ : Shape).ReducesTo [0, 1] (⟨0, ![]⟩ : Shape))
    (hu : 0 < (⟨0, ![]⟩ : Shape).numel)
    (tp ps cnt : FVec F ⟨2, ![16, 8]⟩ .f32) (nll : FVec F ⟨0, ![]⟩ .f32) : FVec F ⟨0, ![]⟩ .f32 :=
  let fp := subf ps tp
  let fn := subf cnt tp
  let two := broadcastInDim ⟨2, ![16, 8]⟩ ![] hb (constant (F := F) ⟨0, ![]⟩ .f32 0x40000000#32)
  let smooth := broadcastInDim ⟨2, ![16, 8]⟩ ![] hb (constant (F := F) ⟨0, ![]⟩ .f32 0x3727C5AC#32)
  let eps := broadcastInDim ⟨2, ![16, 8]⟩ ![] hb (constant (F := F) ⟨0, ![]⟩ .f32 0x322BCC77#32)
  let inter := addf (mulf two tp) smooth
  let union := addf (addf (addf (addf (mulf two tp) fp) fn) smooth) eps
  let dc := Host.divf inter union
  let fg := extractStridedSlice ⟨2, ![16, 7]⟩ ![0, 1] dc hs
  let mean := Host.divf (Host.reduceAdd fg (constant (F := F) ⟨0, ![]⟩ .f32 0x00000000#32) hr hu) (constant (F := F) ⟨0, ![]⟩ .f32 0x42E00000#32)
  let dcLoss := subf (constant (F := F) ⟨0, ![]⟩ .f32 0x3F800000#32) mean
  let ceLoss := Host.divf nll (constant (F := F) ⟨0, ![]⟩ .f32 0x4A800000#32)
  addf (mulf (constant (F := F) ⟨0, ![]⟩ .f32 0x3F800000#32) dcLoss) (mulf (constant (F := F) ⟨0, ![]⟩ .f32 0x3F800000#32) ceLoss)

end Cert.DiceCE

end
-- ==== Proof.KernelRun.lean ====
/-
  The kernel's program run and read: the region leaves the four accumulated statistics in its result arrays, and
  the host operations after it turn them into the loss — the false positives and negatives, the dice quotient, its
  foreground mean taken from one, and the summed negative log-likelihood over the pixel count — which is the one
  function `lossOf` of the four arrays.  The argument arrays end unchanged.
-/
import proofs.«424131_j11587821765242_1_alg».proof.Proof.KernelAcc
import proofs.«424131_j11587821765242_1_alg».proof.Proof.Tail
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Acc

open Cert.KernelIdeal Cert.KernelIdeal.Gen Cert.DiceCE

variable {F : FTy → Type} [FloatOps F]
variable (m : (ℓ : Loc nD τ sig) → Buf (Elt F) ℓ) (ρ : Dev nD → PrngReg)

/-- The loss the program returns, from the accumulators after the last grid point. -/
def result (c : Dev nD) : FVec F S_ .f32 :=
  lossOf bcast_S_S16x8 slices_S16x8_S16x7_0_1 reducesTo_S16x7_S_d0_1 h_S_ (last m c).1 (last m c).2.1 (last m c).2.2.1
    (Host.reduceAdd (last m c).2.2.2 (constant (F := F) S_ .f32 0x00000000#32) reducesTo_S16_S_d0 h_S_)

set_option maxHeartbeats 4000000 in
/-- The host operations after the region, from any contents `W`: the loss of the four statistics found in the region's
    result arrays. -/
theorem tail_ops (W : Valuation τ sig (Elt F)) :
    StableHlo.after (hostOps1 (F := F)) W (Proc.devRef .tc main_v24)
      = lossOf bcast_S_S16x8 slices_S16x8_S16x7_0_1 reducesTo_S16x7_S_d0_1 h_S_
          (W (Proc.devRef .tc main_v0_0)) (W (Proc.devRef .tc main_v0_1)) (W (Proc.devRef .tc main_v0_2))
          (Host.reduceAdd (W (Proc.devRef .tc main_v0_3)) (constant (F := F) S_ .f32 0x00000000#32) reducesTo_S16_S_d0 h_S_) := by
  after_results_simp <;> rfl

/-- The host operations after the region compute the loss from the four result arrays as the run leaves them. -/
theorem tail_eq (c : Dev nD) :
    Pipeline.afterTail₀ cfgs (dats m) 0 (V0 m) [hostOps1] c main_v24 = result m c := by
  unfold Pipeline.afterTail₀ result
  simp only [List.flatten_cons, List.flatten_nil, List.append_nil]
  rw [tail_ops]
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  exact congr (congr (congr (congrArg (lossOf bcast_S_S16x8 slices_S16x8_S16x7_0_1 reducesTo_S16x7_S_d0_1 h_S_) e2) e3) e4)
    (congrArg (fun z => Host.reduceAdd z (constant (F := F) S_ .f32 0x00000000#32) reducesTo_S16_S_d0 h_S_) e5)

/-- The run, read: the result holds the loss of the accumulated statistics, and the arguments end unchanged. -/
theorem run : θ_run defs (onTc (τ := τ) (main (F := F))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v24 (Pipeline.mem_restRefs_of main_v24 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.Spec.lean ====
/-
  The mathematics both programs compute, over the extended reals.

  At one pixel the eight class scores `v` give the shifted scores `v k - max v`, their exponentials, the
  softmax probability `exp (v k - max v) / Σ exp` and the log-probability `(v k - max v) - log Σ exp`.
  A label word `l` selects class `k` when it is the word of `k`.  Per batch entry and class the statistics are
  sums over all 512 × 512 pixels: the probability mass on the labelled pixels, the whole probability mass, and
  the number of labelled pixels; per batch entry the negative log-likelihood is the sum over pixels and
  classes of `-(log-probability)` at the labelled class.  The 512 rows split into 64 tiles of 8 rows, and a sum
  accumulated tile after tile from zero is the sum over all rows.
-/
import Idealize.ShloMosaic.PureOps.Ideal
import Idealize.ShloMosaic.Lib.ValueIdx

noncomputable section

open scoped BigOperators

namespace Cert.DiceCE

open Idealize.ShloMosaic Idealize.ShloMosaic.ValueIdx

/-! ## One pixel -/

/-- The largest of the eight class scores (from `-∞`). -/
def pmax (v : Fin 8 → EReal) : EReal := (Finset.univ : Finset (Fin 8)).fold max ⊥ v
/-- A score less the largest. -/
def shifted (v : Fin 8 → EReal) (k : Fin 8) : EReal := v k - pmax v
/-- Its exponential. -/
def expz (v : Fin 8 → EReal) (k : Fin 8) : EReal := Ideal.exp (shifted v k)
/-- The sum of the eight exponentials. -/
def sumexp (v : Fin 8 → EReal) : EReal := ∑ k : Fin 8, expz v k
/-- The softmax probability of class `k`. -/
def prob (v : Fin 8 → EReal) (k : Fin 8) : EReal := Ideal.div (expz v k) (sumexp v)
/-- The log-softmax of class `k`. -/
def logp (v : Fin 8 → EReal) (k : Fin 8) : EReal := shifted v k - Ideal.log (sumexp v)

/-- The probability of class `k` where the label word `l` is `k`, else zero. -/
def tpTerm (v : Fin 8 → EReal) (l : BitVec 32) (k : Fin 8) : EReal :=
  if l = BitVec.ofNat 32 k.val then prob v k else 0
/-- One where the label word `l` is `k`, else zero. -/
def cntTerm (l : BitVec 32) (k : Fin 8) : EReal :=
  if l = BitVec.ofNat 32 k.val then 1 else 0
/-- The negated log-probability of the labelled class, as a sum over the classes of which at most one is hit. -/
def nllTerm (v : Fin 8 → EReal) (l : BitVec 32) : EReal :=
  ∑ k : Fin 8, if l = BitVec.ofNat 32 k.val then 0 - logp v k else 0

/-- With the label in range the sum over the classes is the one hit. -/
theorem nllTerm_of_class (v : Fin 8 → EReal) (k : Fin 8) : nllTerm v (BitVec.ofNat 32 k.val) = 0 - logp v k := by
  unfold nllTerm
  rw [Finset.sum_eq_single k]
  · rw [if_pos rfl]
  · intro j _ hj
    rw [if_neg]
    intro h
    apply hj
    have := congrArg BitVec.toNat h
    simp only [BitVec.toNat_ofNat] at this
    have hk := k.isLt; have hj' := j.isLt
    apply Fin.ext
    omega
  · intro h; exact absurd (Finset.mem_univ k) h

/-! ## The arrays -/

/-- The scores `[16, 8, 512, 512]` by coordinates. -/
def ofArr4 (x : (⟨4, ![16, 8, 512, 512]⟩ : Shape).Idx → EReal) : Fin 16 → Fin 8 → Fin 512 → Fin 512 → EReal :=
  fun b k h w => x (ix4 b k h w)
/-- The labels `[16, 512, 512]` by coordinates. -/
def ofArr3 (y : (⟨3, ![16, 512, 512]⟩ : Shape).Idx → BitVec 32) : Fin 16 → Fin 512 → Fin 512 → BitVec 32 :=
  fun b h w => y (ix3 b h w)

/-- The class scores at pixel `(b, h, w)`. -/
def pix (X : Fin 16 → Fin 8 → Fin 512 → Fin 512 → EReal) (b : Fin 16) (h w : Fin 512) : Fin 8 → EReal :=
  fun k => X b k h w

/-- Probability mass on the pixels labelled `c`. -/
def tpS (X : Fin 16 → Fin 8 → Fin 512 → Fin 512 → EReal) (Y : Fin 16 → Fin 512 → Fin 512 → BitVec 32)
    (b : Fin 16) (c : Fin 8) : EReal := ∑ h : Fin 512, ∑ w : Fin 512, tpTerm (pix X b h w) (Y b h w) c
/-- Whole probability mass of class `c`. -/
def psS (X : Fin 16 → Fin 8 → Fin 512 → Fin 512 → EReal) (b : Fin 16) (c : Fin 8) : EReal :=
  ∑ h : Fin 512, ∑ w : Fin 512, prob (pix X b h w) c
/-- Number of pixels labelled `c`. -/
def cntS (Y : Fin 16 → Fin 512 → Fin 512 → BitVec 32) (b : Fin 16) (c : Fin 8) : EReal :=
  ∑ h : Fin 512, ∑ w : Fin 512, cntTerm (Y b h w) c
/-- Negative log-likelihood of batch entry `b`. -/
def nllS (X : Fin 16 → Fin 8 → Fin 512 → Fin 512 → EReal) (Y : Fin 16 → Fin 512 → Fin 512 → BitVec 32)
    (b : Fin 16) : EReal := ∑ h : Fin 512, ∑ w : Fin 512, nllTerm (pix X b h w) (Y b h w)

/-! ## Tiles of eight rows -/

/-- Row `r` of tile `t`. -/
def row (t : Fin 64) (r : Fin 8) : Fin 512 := ⟨8 * t.val + r.val, by have := t.isLt; have := r.isLt; omega⟩

/-- The 512 rows are the 64 tiles' 8 rows. -/
def rowEquiv : Fin 64 × Fin 8 ≃ Fin 512 where
  toFun p := row p.1 p.2
  invFun h := (⟨h.val / 8, by have := h.isLt; omega⟩, ⟨h.val % 8, Nat.mod_lt _ (by decide)⟩)
  left_inv p := by
    obtain ⟨t, r⟩ := p
    have := t.isLt; have := r.isLt
    apply Prod.ext <;> apply Fin.ext <;> simp only [row] <;> omega
  right_inv h := by
    apply Fin.ext; simp only [row]; omega

/-- A sum over the rows, tile by tile. -/
theorem sum_rows {M : Type*} [AddCommMonoid M] (g : Fin 512 → M) :
    ∑ t : Fin 64, ∑ r : Fin 8, g (row t r) = ∑ h : Fin 512, g h := by
  rw [← Fintype.sum_prod_type (f := fun p : Fin 64 × Fin 8 => g (row p.1 p.2))]
  exact Equiv.sum_comp rowEquiv g

/-- The running sum a grid accumulator holds after tile `n`: zero plus the first tile's part, then each later
    tile's part added on the right. -/
def acc (P : ℕ → EReal) : ℕ → EReal
  | 0 => 0 + P 0
  | n + 1 => acc P n + P (n + 1)

theorem acc_eq_sum (P : ℕ → EReal) (n : ℕ) : acc P n = ∑ t ∈ Finset.range (n + 1), P t := by
  induction n with
  | zero => simp [acc]
  | succ n ih => rw [acc, ih, Finset.sum_range_succ _ (n + 1)]

/-- After the last of the 64 tiles the accumulator holds the sum of all the parts. -/
theorem acc_last (P : ℕ → EReal) : acc P 63 = ∑ t : Fin 64, P t.val := by
  rw [acc_eq_sum, Fin.sum_univ_eq_sum_range]

end Cert.DiceCE

end
-- ==== Proof.KernelReads.lean ====
/-
  The kernel's input blocks as parts of the argument arrays, at the extended reals: at grid point `t` the block of
  scores is rows `8t … 8t + 7` of the scores (all batch entries, classes and columns), and the block of labels the
  same rows of the labels.
-/
import proofs.«424131_j11587821765242_1_alg».proof.Proof.KernelAcc
import proofs.«424131_j11587821765242_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Closed

open Idealize.ShloMosaic.ValueIdx Cert.KernelIdeal Cert.KernelIdeal.Gen Cert.KernelIdeal.Acc Cert.DiceCE

variable (m : (ℓ : Loc nD τ sig) → Buf (Elt Ideal) ℓ)

/-- The scores by coordinates. -/
abbrev X (c : Dev nD) : Fin 16 → Fin 8 → Fin 512 → Fin 512 → EReal := ofArr4 (m ((c.tc : Thread nD τ).loc main_arg0))
/-- The labels by coordinates. -/
abbrev Y (c : Dev nD) : Fin 16 → Fin 512 → Fin 512 → BitVec 32 := ofArr3 (m ((c.tc : Thread nD τ).loc main_arg1))

/-- The tile of eight rows a grid point works on. -/
def tile (t : Fin cfg0.N) : Fin 64 := ⟨t.val, lt_of_lt_of_eq t.isLt (show cfg0.N = 64 from N_0)⟩

/-- The block index of the scores' window at point `t` is `(0, 0, t, 0)`: decided over the grid. -/
private theorem idx0 : ∀ t : Fin cfg0.N, win0_0.index t 0 = 0 ∧ win0_0.index t 1 = 0 ∧ win0_0.index t 2 = t.val ∧ win0_0.index t 3 = 0 :=
  (by decide +kernel : ∀ t : Fin grid0.N, win0_0.index t 0 = 0 ∧ win0_0.index t 1 = 0 ∧ win0_0.index t 2 = t.val ∧ win0_0.index t 3 = 0)

/-- The block index of the labels' window at point `t` is `(0, t, 0)`: decided over the grid. -/
private theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- The block of scores at point `t`, entry `(b, k, r, w)`: the scores at row `r` of the point's tile. -/
theorem xblk_apply (c : Dev nD) (t : Fin cfg0.N) (b : Fin 16) (k : Fin 8) (r : Fin 8) (w : Fin 512) :
    xblk m c t (ix4 b k r w) = X m c b k (row (tile t) r) w := by
  -- an entry of the block sits in the array at block index × block size + its coordinate, axis by axis
  have hi := idx0 t
  show iblk m c 0 t (ix4 b k r w) = ofArr4 (m ((c.tc : Thread nD τ).loc main_arg0)) b k (row (tile t) r) w
  unfold iblk ofArr4
  rw [View.read_apply]
  show V m c main_arg0 _ = m (c.tc.loc main_arg0) _
  unfold V
  congr 1
  funext a
  apply Fin.ext
  match a with
  | ⟨0, _⟩ => show win0_0.index t 0 * 16 + 1 * b.val = b.val; rw [hi.1]; omega
  | ⟨1, _⟩ => show win0_0.index t 1 * 8 + 1 * k.val = k.val; rw [hi.2.1]; omega
  | ⟨2, _⟩ => show win0_0.index t 2 * 8 + 1 * r.val = 8 * t.val + r.val; rw [hi.2.2.1]; omega
  | ⟨3, _⟩ => show win0_0.index t 3 * 512 + 1 * w.val = w.val; rw [hi.2.2.2]; omega

/-- The block of labels at point `t`, entry `(b, r, w)`: the labels at row `r` of the point's tile. -/
theorem yblk_apply (c : Dev nD) (t : Fin cfg0.N) (b : Fin 16) (r : Fin 8) (w : Fin 512) :
    yblk m c t (ix3 b r w) = Y m c b (row (tile t) r) w := by
  have hi := idx1 t
  show iblk m c 1 t (ix3 b r w) = ofArr3 (m ((c.tc : Thread nD τ).loc main_arg1)) b (row (tile t) r) w
  unfold iblk ofArr3
  rw [View.read_apply]
  show V m c main_arg1 _ = m (c.tc.loc main_arg1) _
  unfold V
  congr 1
  funext a
  apply Fin.ext
  match a with
  | ⟨0, _⟩ => show win0_1.index t 0 * 16 + 1 * b.val = b.val; rw [hi.1]; omega
  | ⟨1, _⟩ => show win0_1.index t 1 * 8 + 1 * r.val = 8 * t.val + r.val; rw [hi.2.1]; omega
  | ⟨2, _⟩ => show win0_1.index t 2 * 512 + 1 * w.val = w.val; rw [hi.2.2]; omega

end Cert.KernelIdeal.Closed

end
-- ==== Proof.KernelPixel.lean ====
/-
  One grid point of the kernel, at the extended reals, entry by entry: the body's shifted scores, their
  exponentials, the sum of the exponentials over the eight classes, the softmax probability and the label mask of
  a block of eight rows, each read at one entry `(b, k, r, w)` as the pixel's function of its eight class scores.
-/
import proofs.«424131_j11587821765242_1_alg».proof.Proof.Gen.KernelIdeal.Skeleton
import proofs.«424131_j11587821765242_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Block

open Idealize.ShloMosaic Idealize.ShloMosaic.ValueIdx Cert.KernelIdeal Cert.KernelIdeal.Gen Cert.DiceCE

/-- The class scores of the block at batch entry `b`, row `r`, column `w`. -/
def pixB (x0 : Vec Ideal S16x8x8x512 .f32) (b : Fin 16) (r : Fin 8) (w : Fin 512) : Fin 8 → EReal :=
  fun k => x0 (ix4 b k r w)

section Aux
variable {α : Type}

/-- A value over (batch, row, column) given a unit class axis, read at (b, 0, r, w), is the value at (b, r, w). -/
private theorem unit_apply (v : S16x8x512.Idx → α) (h1 : S16x8x512.ShapeCasts S16x1x8x512)
    (b : Fin 16) (r : Fin 8) (w : Fin 512) :
    shapeCast S16x1x8x512 v h1 (ix4 b (0 : Fin 1) r w) = v (ix3 b r w) := by
  refine shapeCast_apply v h1 (ix4 b (0 : Fin 1) r w) (ix3 b r w) ?_
  rw [Shape.rowMajor_val_three, Shape.rowMajor_val_four]
  show (b.val * 8 + r.val) * 512 + w.val = ((b.val * 1 + 0) * 8 + r.val) * 512 + w.val
  omega

/-- A value with a unit class axis spread over the eight classes, read at (b, k, r, w), is the value at (b, 0, r, w). -/
private theorem bcast_apply (v : S16x1x8x512.Idx → α) (h2 : S16x1x8x512.Broadcasts S16x8x8x512)
    (b : Fin 16) (k : Fin 8) (r : Fin 8) (w : Fin 512) :
    broadcastTo S16x8x8x512 v h2 (ix4 b k r w) = v (ix4 b (0 : Fin 1) r w) := by
  refine broadcastTo_apply v h2 (ix4 b k r w) (ix4 b (0 : Fin 1) r w) ?_
  intro a
  match a with
  | ⟨0, _⟩ => rfl
  | ⟨1, _⟩ => rfl
  | ⟨2, _⟩ => rfl
  | ⟨3, _⟩ => rfl

/-- Both together: given the unit class axis and spread over the classes, the value at (b, k, r, w) is the one at (b, r, w). -/
private theorem spread_apply (v : S16x8x512.Idx → α) (h1 : S16x8x512.ShapeCasts S16x1x8x512)
    (h2 : S16x1x8x512.Broadcasts S16x8x8x512) (b : Fin 16) (k : Fin 8) (r : Fin 8) (w : Fin 512) :
    broadcastTo S16x8x8x512 (shapeCast S16x1x8x512 v h1) h2 (ix4 b k r w) = v (ix3 b r w) :=
  (bcast_apply _ h2 b k r w).trans (unit_apply v h1 b r w)

end Aux

/-- The index (b, r, w) with the class coordinate `k` put back is (b, k, r, w). -/
private theorem lift_eq (h : S16x8x8x512.Reduces [1] S16x8x512) (b : Fin 16) (r : Fin 8) (w : Fin 512) (k : Fin 8) :
    h.lift (ix3 b r w) k = ix4 b k r w := by
  funext a
  match a with
  | ⟨0, _⟩ => rfl
  | ⟨1, _⟩ => rfl
  | ⟨2, _⟩ => rfl
  | ⟨3, _⟩ => rfl

/-- The word `0xFF800000` is `-∞`. -/
private theorem ofBits_neg_inf : Ideal.ofBits .f32 0xFF800000#32 = (⊥ : EReal) := by
  simp [Ideal.ofBits, Ideal.ieee]

/-- The block read along the class axis at (b, r, w) is the pixel's eight scores. -/
private theorem lift_class (x0 : Vec Ideal S16x8x8x512 .f32) (h : S16x8x8x512.Reduces [1] S16x8x512)
    (b : Fin 16) (r : Fin 8) (w : Fin 512) :
    (x0 ∘ h.lift (ix3 b r w) : Fin 8 → EReal) = pixB x0 b r w := by
  funext k
  show x0 (h.lift (ix3 b r w) k) = x0 (ix4 b k r w)
  rw [lift_eq]

/-- The maximum over the class axis at (b, r, w) is the largest of the pixel's eight scores. -/
private theorem maxred_apply (x0 : Vec Ideal S16x8x8x512 .f32) (h : S16x8x8x512.Reduces [1] S16x8x512)
    (hφ : FKind.Formats .f32) (hacc : (0xFF800000#32 : BitVec FTy.f32.bits) = FKind.maximumf.neutral .f32 hφ)
    (b : Fin 16) (r : Fin 8) (w : Fin 512) :
    multiReduction (F := Ideal) .maximumf [1] S16x8x512 x0 0xFF800000#32 h hφ hacc (ix3 b r w)
      = pmax (pixB x0 b r w) := by
  refine (Ideal.multiReduction_maximumf_single x0 _ h hφ hacc (ix3 b r w)).trans ?_
  unfold pmax
  rw [Ideal.ofBits_def, ofBits_neg_inf]
  exact congrArg (fun f : Fin 8 → EReal => (Finset.univ : Finset (Fin 8)).fold max ⊥ f) (lift_class x0 h b r w)

/-- The sum over the class axis at (b, r, w) is the sum of the eight values there. -/
private theorem addred_apply (y : Vec Ideal S16x8x8x512 .f32) (h : S16x8x8x512.Reduces [1] S16x8x512)
    (hφ : FKind.Formats .f32) (hacc : (0x00000000#32 : BitVec FTy.f32.bits) = FKind.add.neutral .f32 hφ)
    (b : Fin 16) (r : Fin 8) (w : Fin 512) :
    multiReduction (F := Ideal) .add [1] S16x8x512 y 0x00000000#32 h hφ hacc (ix3 b r w)
      = ∑ k : Fin 8, y (ix4 b k r w) := by
  refine (Ideal.multiReduction_add_single y _ h hφ hacc (ix3 b r w)).trans ?_
  exact Finset.sum_congr rfl fun k _ => congrArg y (lift_eq h b r w k)

/-- A score less the largest of the pixel's eight. -/
theorem pay9_apply (x0 : Vec Ideal S16x8x8x512 .f32) (b : Fin 16) (k : Fin 8) (r : Fin 8) (w : Fin 512) :
    k0_pay9 (F := Ideal) x0 (ix4 b k r w) = shifted (pixB x0 b r w) k := by
  unfold k0_pay9
  rw [subf_apply, spread_apply]
  exact congrArg (fun m : EReal => x0 (ix4 b k r w) - m) (maxred_apply x0 _ _ _ b r w)

/-- Its exponential. -/
theorem pay10_apply (x0 : Vec Ideal S16x8x8x512 .f32) (b : Fin 16) (k : Fin 8) (r : Fin 8) (w : Fin 512) :
    k0_pay10 (F := Ideal) x0 (ix4 b k r w) = expz (pixB x0 b r w) k := by
  unfold k0_pay10
  show Ideal.exp (k0_pay9 (F := Ideal) x0 (ix4 b k r w)) = _
  rw [pay9_apply]
  rfl

/-- The sum of the pixel's eight exponentials (kept with a unit class axis). -/
theorem pay11_apply (x0 : Vec Ideal S16x8x8x512 .f32) (b : Fin 16) (r : Fin 8) (w : Fin 512) :
    k0_pay11 (F := Ideal) x0 (ix4 b (0 : Fin 1) r w) = sumexp (pixB x0 b r w) := by
  unfold k0_pay11
  rw [unit_apply]
  refine (addred_apply (k0_pay10 (F := Ideal) x0) _ _ _ b r w).trans ?_
  unfold sumexp
  exact Finset.sum_congr rfl fun k _ => pay10_apply x0 b k r w

/-- The softmax probability. -/
theorem pay12_apply (x0 : Vec Ideal S16x8x8x512 .f32) (b : Fin 16) (k : Fin 8) (r : Fin 8) (w : Fin 512) :
    k0_pay12 (F := Ideal) x0 (ix4 b k r w) = prob (pixB x0 b r w) k := by
  unfold k0_pay12
  rw [divf_apply, bcast_apply, pay10_apply, pay11_apply]
  rfl

/-- The label mask: the bit of "the pixel's label word is the word of class `k`". -/
theorem pay13_apply (x1 : Vec Ideal S16x8x512 .i32) (b : Fin 16) (k : Fin 8) (r : Fin 8) (w : Fin 512) :
    k0_pay13 (F := Ideal) x1 (ix4 b k r w) = if x1 (ix3 b r w) = BitVec.ofNat 32 k.val then 1#1 else 0#1 := by
  unfold k0_pay13
  show IntOp.cmpi .eq _ _ = _
  rw [spread_apply, iota_single_apply]
  show BitVec.ofBool (x1 (ix3 b r w) == BitVec.ofNat 32 k.val) = _
  by_cases h : x1 (ix3 b r w) = BitVec.ofNat 32 k.val
  · rw [if_pos h, beq_iff_eq.2 h]; rfl
  · rw [if_neg h, beq_eq_false_iff_ne.2 h]; rfl

end Cert.KernelIdeal.Block

end
-- ==== Proof.KernelBlock.lean ====
/-
  One grid point of the kernel, at the extended reals: what the body computes from its two input blocks — the
  scores of eight rows `[16, 8, 8, 512]` and their labels `[16, 8, 512]` — read entry by entry.
-/
import proofs.«424131_j11587821765242_1_alg».proof.Proof.KernelPixel
import Idealize.ShloMosaic.PureOps.Ideal.Laws
import Idealize.ShloMosaic.Lib.Pipeline.Value
import Idealize.ShloMosaic.Lib.ValueLayout

noncomputable section

open scoped BigOperators

namespace Cert.KernelIdeal.Block

open Idealize.ShloMosaic Idealize.ShloMosaic.ValueIdx Cert.KernelIdeal Cert.KernelIdeal.Gen Cert.DiceCE

/-! ## The index a one-axis sum reads: the result's index with the summed coordinate put back -/

/-- Summing `[16, 8, 8, 512]` over its columns: the entry over `(b, c, r)` at column `w` is `(b, c, r, w)`. -/
private theorem lift_cols4 (b : Fin 16) (c : Fin 8) (r : Fin 8) (w : Fin 512) :
    reduces_S16x8x8x512_S16x8x8.lift (ix3 b c r) w = ix4 b c r w := by
  funext d
  match d with
  | ⟨0, _⟩ => rfl
  | ⟨1, _⟩ => rfl
  | ⟨2, _⟩ => rfl
  | ⟨3, _⟩ => rfl

/-- Summing `[16, 8, 8]` over its rows: the entry over `(b, c)` at row `r` is `(b, c, r)`. -/
private theorem lift_rows3 (b : Fin 16) (c : Fin 8) (r : Fin 8) :
    reduces_S16x8x8_S16x8.lift (ix2 b c) r = ix3 b c r := by
  funext d
  match d with
  | ⟨0, _⟩ => rfl
  | ⟨1, _⟩ => rfl
  | ⟨2, _⟩ => rfl

/-- Summing `[16, 8]` (batch entry, row) over its rows: the entry over `b` at row `r` is `(b, r)`. -/
private theorem lift_rows2 (b : Fin 16) (r : Fin 8) : reduces_S16x8_S16.lift (ix1 b) r = ix2 b r := by
  funext d
  match d with
  | ⟨0, _⟩ => rfl
  | ⟨1, _⟩ => rfl

/-- Summing `[16, 8, 512]` (batch entry, row, column) over its columns: the entry over `(b, r)` at column `w` is
    `(b, r, w)`. -/
private theorem lift_cols3 (b : Fin 16) (r : Fin 8) (w : Fin 512) :
    reduces_S16x8x512_S16x8.lift (ix2 b r) w = ix3 b r w := by
  funext d
  match d with
  | ⟨0, _⟩ => rfl
  | ⟨1, _⟩ => rfl
  | ⟨2, _⟩ => rfl

/-- Summing `[16, 8, 8, 512]` over its classes: the entry over `(b, r, w)` at class `k` is `(b, k, r, w)`. -/
private theorem lift_class4 (b : Fin 16) (r : Fin 8) (w : Fin 512) (k : Fin 8) :
    reduces_S16x8x8x512_S16x8x512.lift (ix3 b r w) k = ix4 b k r w := by
  funext d
  match d with
  | ⟨0, _⟩ => rfl
  | ⟨1, _⟩ => rfl
  | ⟨2, _⟩ => rfl
  | ⟨3, _⟩ => rfl

/-- A block with a unit class axis, spread over the eight classes and read at class `k`: its one entry there. -/
private theorem spread_class_apply {α : Type} (x : S16x1x8x512.Idx → α) (b : Fin 16) (k : Fin 8) (r : Fin 8) (w : Fin 512) :
    broadcastTo S16x8x8x512 x broadcasts_S16x1x8x512_S16x8x8x512 (ix4 b k r w) = x (ix4 b (0 : Fin 1) r w) := by
  refine broadcastTo_apply x _ _ _ fun a => ?_
  match a with
  | ⟨0, _⟩ => rfl
  | ⟨1, _⟩ => rfl
  | ⟨2, _⟩ => rfl
  | ⟨3, _⟩ => rfl

/-- The two sums of a block `[16, 8, 8, 512]`, over its columns and then over its rows, read at `(b, c)`: the double
    sum over the rows and columns of the block's entries of batch entry `b` and class `c`. -/
private theorem sum_rows_cols (src : FVec Ideal S16x8x8x512 .f32) (b : Fin 16) (c : Fin 8) :
    multiReduction .add [2] S16x8
        (multiReduction .add [3] S16x8x8 src 0x00000000#32 reduces_S16x8x8x512_S16x8x8 (.inl rfl) rfl)
        0x00000000#32 reduces_S16x8x8_S16x8 (.inl rfl) rfl (ix2 b c)
      = ∑ r : Fin 8, ∑ w : Fin 512, src (ix4 b c r w) := by
  refine (Ideal.multiReduction_add_single _ _ reduces_S16x8x8_S16x8 (.inl rfl) rfl (ix2 b c)).trans ?_
  refine Finset.sum_congr rfl fun (r : Fin 8) _ => ?_
  rw [show reduces_S16x8x8_S16x8.lift (ix2 b c) r = ix3 b c r from lift_rows3 b c r]
  refine (Ideal.multiReduction_add_single _ _ reduces_S16x8x8x512_S16x8x8 (.inl rfl) rfl (ix3 b c r)).trans ?_
  refine Finset.sum_congr rfl fun (w : Fin 512) _ => ?_
  rw [show reduces_S16x8x8x512_S16x8x8.lift (ix3 b c r) w = ix4 b c r w from lift_cols4 b c r w]

/-! ## The block's four partial sums -/

/-- The block's part of the labelled probability mass. -/
theorem pay14_apply (x0 : Vec Ideal S16x8x8x512 .f32) (x1 : Vec Ideal S16x8x512 .i32) (b : Fin 16) (c : Fin 8) :
    k0_pay14 (F := Ideal) x0 x1 (ix2 b c)
      = ∑ r : Fin 8, ∑ w : Fin 512, tpTerm (pixB x0 b r w) (x1 (ix3 b r w)) c := by
  unfold k0_pay14
  refine (sum_rows_cols _ b c).trans ?_
  refine Finset.sum_congr rfl fun r _ => Finset.sum_congr rfl fun w _ => ?_
  -- one entry: the probability where the label word is the class's, else the zero word's value
  rw [select_apply, pay13_apply, pay12_apply, broadcast_apply]
  unfold tpTerm
  by_cases h : x1 (ix3 b r w) = BitVec.ofNat 32 c.val
  · rw [if_pos h, if_pos h, select_one]
  · rw [if_neg h, if_neg h, select_zero]
    exact Ideal.ofBits_zero_f32

/-- The block's part of the probability mass. -/
theorem pay15_apply (x0 : Vec Ideal S16x8x8x512 .f32) (b : Fin 16) (c : Fin 8) :
    k0_pay15 (F := Ideal) x0 (ix2 b c) = ∑ r : Fin 8, ∑ w : Fin 512, prob (pixB x0 b r w) c := by
  unfold k0_pay15
  refine (sum_rows_cols _ b c).trans ?_
  refine Finset.sum_congr rfl fun r _ => Finset.sum_congr rfl fun w _ => ?_
  rw [pay12_apply]

/-- The block's part of the label counts. -/
theorem pay16_apply (x1 : Vec Ideal S16x8x512 .i32) (b : Fin 16) (c : Fin 8) :
    k0_pay16 (F := Ideal) x1 (ix2 b c) = ∑ r : Fin 8, ∑ w : Fin 512, cntTerm (x1 (ix3 b r w)) c := by
  unfold k0_pay16
  refine (sum_rows_cols _ b c).trans ?_
  refine Finset.sum_congr rfl fun r _ => Finset.sum_congr rfl fun w _ => ?_
  -- one entry: the mask bit widened to a word and read as a signed integer, which is 1 or 0
  rw [sitofp_apply, extui_apply, pay13_apply]
  unfold cntTerm
  by_cases h : x1 (ix3 b r w) = BitVec.ofNat 32 c.val
  · rw [if_pos h, if_pos h]
    show (((BitVec.setWidth 32 1#1).toInt : ℝ) : EReal) = 1
    rw [show (BitVec.setWidth 32 1#1).toInt = 1 by decide]
    norm_num
  · rw [if_neg h, if_neg h]
    show (((BitVec.setWidth 32 0#1).toInt : ℝ) : EReal) = 0
    rw [show (BitVec.setWidth 32 0#1).toInt = 0 by decide]
    norm_num

/-- The sum over the classes, at one pixel, of the negated log-probability where the label word is the class's and
    zero elsewhere: the pixel's negative log-likelihood term. The log-probability is the shifted score less the
    logarithm of the sum of the exponentials. -/
private theorem pay17_apply (x0 : Vec Ideal S16x8x8x512 .f32) (x1 : Vec Ideal S16x8x512 .i32) (b : Fin 16) (r : Fin 8)
    (w : Fin 512) :
    k0_pay17 (F := Ideal) x0 x1 (ix3 b r w) = nllTerm (pixB x0 b r w) (x1 (ix3 b r w)) := by
  unfold k0_pay17
  refine (Ideal.multiReduction_add_single _ _ reduces_S16x8x8x512_S16x8x512 (.inl rfl) rfl (ix3 b r w)).trans ?_
  unfold nllTerm
  refine Finset.sum_congr rfl fun (k : Fin 8) _ => ?_
  rw [show reduces_S16x8x8x512_S16x8x512.lift (ix3 b r w) k = ix4 b k r w from lift_class4 b r w k]
  rw [select_apply, pay13_apply, subf_apply, subf_apply, pay9_apply, spread_class_apply, broadcast_apply]
  show Scalar.select _ (Ideal.ofBits .f32 0x00000000#32 - (shifted (pixB x0 b r w) k
      - Ideal.log (k0_pay11 (F := Ideal) x0 (ix4 b (0 : Fin 1) r w)))) (Ideal.ofBits .f32 0x00000000#32) = _
  rw [pay11_apply, Ideal.ofBits_zero_f32]
  by_cases h : x1 (ix3 b r w) = BitVec.ofNat 32 k.val
  · rw [if_pos h, if_pos h, select_one]
    rfl
  · rw [if_neg h, if_neg h, select_zero]

/-- The negative log-likelihood accumulator after the block: what it held plus the block's part. -/
theorem pay4_apply (x0 : Vec Ideal S16x8x8x512 .f32) (x1 : Vec Ideal S16x8x512 .i32) (xo : Vec Ideal S16 .f32) (b : Fin 16) :
    k0_pay4 (F := Ideal) (k0_pay17 (F := Ideal) x0 x1) xo (ix1 b)
      = xo (ix1 b) + ∑ r : Fin 8, ∑ w : Fin 512, nllTerm (pixB x0 b r w) (x1 (ix3 b r w)) := by
  unfold k0_pay4
  rw [addf_apply, shapeCast_self]
  refine congrArg (xo (ix1 b) + ·) ?_
  -- the sum over the rows of the sums over the columns of the per-pixel terms
  refine (Ideal.multiReduction_add_single _ _ reduces_S16x8_S16 (.inl rfl) rfl (ix1 b)).trans ?_
  refine Finset.sum_congr rfl fun (r : Fin 8) _ => ?_
  rw [show reduces_S16x8_S16.lift (ix1 b) r = ix2 b r from lift_rows2 b r]
  refine (Ideal.multiReduction_add_single _ _ reduces_S16x8x512_S16x8 (.inl rfl) rfl (ix2 b r)).trans ?_
  refine Finset.sum_congr rfl fun (w : Fin 512) _ => ?_
  rw [show reduces_S16x8x512_S16x8.lift (ix2 b r) w = ix3 b r w from lift_cols3 b r w, pay17_apply]

/-! ## The accumulators' updates and the reset -/

/-- The three `[16, 8]` accumulators after the block: what each held plus the block's part. -/
theorem pay1_apply (v : FVec Ideal S16x8 .f32) (xo : Vec Ideal S16x8 .f32) (j : S16x8.Idx) :
    k0_pay1 (F := Ideal) v xo j = xo j + v j := by
  unfold k0_pay1
  rw [shapeCast_self]
  rfl
theorem pay2_apply (v : FVec Ideal S16x8 .f32) (xo : Vec Ideal S16x8 .f32) (j : S16x8.Idx) :
    k0_pay2 (F := Ideal) v xo j = xo j + v j := by
  unfold k0_pay2
  rw [shapeCast_self]
  rfl
theorem pay3_apply (v : FVec Ideal S16x8 .f32) (xo : Vec Ideal S16x8 .f32) (j : S16x8.Idx) :
    k0_pay3 (F := Ideal) v xo j = xo j + v j := by
  unfold k0_pay3
  rw [shapeCast_self]
  rfl

/-- The reset stores zeros. -/
theorem pay5_apply (j : S16x8.Idx) : k0_pay5 (F := Ideal) j = 0 := Ideal.ofBits_zero_f32
theorem pay6_apply (j : S16x8.Idx) : k0_pay6 (F := Ideal) j = 0 := Ideal.ofBits_zero_f32
theorem pay7_apply (j : S16x8.Idx) : k0_pay7 (F := Ideal) j = 0 := Ideal.ofBits_zero_f32
theorem pay8_apply (j : S16.Idx) : k0_pay8 (F := Ideal) j = 0 := Ideal.ofBits_zero_f32

end Cert.KernelIdeal.Block

end
-- ==== Proof.KernelClosed.lean ====
/-
  The kernel's four accumulators in closed form, at the extended reals.  After grid point `n` each accumulator
  entry is zero plus the parts of tiles `0 … n` added in order; a tile's part is the sum over its eight rows and
  the 512 columns of the pixel's term; after the last of the 64 tiles the entry is the sum over all 512 rows: the
  labelled probability mass, the whole probability mass, the label count, the negative log-likelihood.
-/
import proofs.«424131_j11587821765242_1_alg».proof.Proof.KernelReads
import proofs.«424131_j11587821765242_1_alg».proof.Proof.KernelBlock

noncomputable section

open scoped BigOperators

open Idealize.ShloMosaic Idealize.ShloMosaic.TcCoe Idealize.SL.Sem

namespace Cert.KernelIdeal.Closed

open Idealize.ShloMosaic.ValueIdx Cert.KernelIdeal Cert.KernelIdeal.Gen Cert.KernelIdeal.Acc Cert.KernelIdeal.Block Cert.DiceCE

/-- A sequence that starts at zero plus the first part and adds one part per step is the running sum. -/
theorem eq_acc {N : ℕ} (a : (n : ℕ) → n < N → EReal) (P : ℕ → EReal) (h0 : ∀ h, a 0 h = 0 + P 0)
    (hs : ∀ n (h : n + 1 < N), a (n + 1) h = a n (Nat.lt_of_succ_lt h) + P (n + 1)) :
    ∀ n (h : n < N), a n h = acc P n
  | 0, h => h0 h
  | n + 1, h => by rw [hs n h, eq_acc a P h0 hs n (Nat.lt_of_succ_lt h)]; rfl

/-- The part of tile `t` (none beyond the 64 tiles) of a sum over the rows of `g`. -/
def part (g : Fin 512 → EReal) (t : ℕ) : EReal := if ht : t < 64 then ∑ r : Fin 8, g (row ⟨t, ht⟩ r) else 0

/-- The parts of all 64 tiles, accumulated, are the sum over all rows. -/
theorem acc_part (g : Fin 512 → EReal) : acc (part g) 63 = ∑ h : Fin 512, g h := by
  rw [acc_last, ← sum_rows g]
  refine Finset.sum_congr rfl fun t _ => ?_
  unfold part
  rw [dif_pos t.isLt]

variable (m : (ℓ : Loc nD τ sig) → Buf (Elt Ideal) ℓ)

/-- The pixel scores of a block entry are the pixel scores of the array at the tile's row. -/
theorem pixB_xblk (c : Dev nD) (t : Fin cfg0.N) (b : Fin 16) (r : Fin 8) (w : Fin 512) :
    pixB (xblk m c t) b r w = pix (X m c) b (row (tile t) r) w :=
  funext fun k => xblk_apply m c t b k r w

theorem tile_val (n : ℕ) (h : n < cfg0.N) (h' : n < 64) : tile (⟨n, h⟩ : Fin cfg0.N) = ⟨n, h'⟩ := rfl

/-- The labelled probability mass after point `n`. -/
theorem chain1_apply (c : Dev nD) (b : Fin 16) (k : Fin 8) (n : ℕ) (h : n < cfg0.N) :
    (chain m c n h).1 (ix2 b k)
      = acc (part fun hh => ∑ w : Fin 512, tpTerm (pix (X m c) b hh w) (Y m c b hh w) k) n := by
  have hN : cfg0.N = 64 := N_0
  refine eq_acc (fun n h => (chain m c n h).1 (ix2 b k)) _ ?_ ?_ n h
  · intro h
    show k0_pay1 (F := Ideal) (k0_pay14 (xblk m c ⟨0, h⟩) (yblk m c ⟨0, h⟩)) (k0_pay5 (F := Ideal)) (ix2 b k) = _
    rw [pay1_apply, pay5_apply, pay14_apply]
    refine congrArg (fun z : EReal => _ + z) ?_
    unfold part
    rw [dif_pos (by omega : 0 < 64)]
    refine Finset.sum_congr rfl fun r _ => Finset.sum_congr rfl fun w _ => ?_
    rw [pixB_xblk, yblk_apply]
    rfl
  · intro n h
    show k0_pay1 (F := Ideal) (k0_pay14 (xblk m c ⟨n + 1, h⟩) (yblk m c ⟨n + 1, h⟩)) (chain m c n _).1 (ix2 b k) = _
    rw [pay1_apply, pay14_apply]
    refine congrArg (fun z : EReal => _ + z) ?_
    unfold part
    rw [dif_pos (by omega : n + 1 < 64)]
    refine Finset.sum_congr rfl fun r _ => Finset.sum_congr rfl fun w _ => ?_
    rw [pixB_xblk, yblk_apply]
    rfl

/-- The whole probability mass after point `n`. -/
theorem chain2_apply (c : Dev nD) (b : Fin 16) (k : Fin 8) (n : ℕ) (h : n < cfg0.N) :
    (chain m c n h).2.1 (ix2 b k) = acc (part fun hh => ∑ w : Fin 512, prob (pix (X m c) b hh w) k) n := by
  have hN : cfg0.N = 64 := N_0
  refine eq_acc (fun n h => (chain m c n h).2.1 (ix2 b k)) _ ?_ ?_ n h
  · intro h
    show k0_pay2 (F := Ideal) (k0_pay15 (xblk m c ⟨0, h⟩)) (k0_pay6 (F := Ideal)) (ix2 b k) = _
    rw [pay2_apply, pay6_apply, pay15_apply]
    refine congrArg (fun z : EReal => _ + z) ?_
    unfold part
    rw [dif_pos (by omega : 0 < 64)]
    refine Finset.sum_congr rfl fun r _ => Finset.sum_congr rfl fun w _ => ?_
    rw [pixB_xblk]
    rfl
  · intro n h
    show k0_pay2 (F := Ideal) (k0_pay15 (xblk m c ⟨n + 1, h⟩)) (chain m c n _).2.1 (ix2 b k) = _
    rw [pay2_apply, pay15_apply]
    refine congrArg (fun z : EReal => _ + z) ?_
    unfold part
    rw [dif_pos (by omega : n + 1 < 64)]
    refine Finset.sum_congr rfl fun r _ => Finset.sum_congr rfl fun w _ => ?_
    rw [pixB_xblk]
    rfl

/-- The label count after point `n`. -/
theorem chain3_apply (c : Dev nD) (b : Fin 16) (k : Fin 8) (n : ℕ) (h : n < cfg0.N) :
    (chain m c n h).2.2.1 (ix2 b k) = acc (part fun hh => ∑ w : Fin 512, cntTerm (Y m c b hh w) k) n := by
  have hN : cfg0.N = 64 := N_0
  refine eq_acc (fun n h => (chain m c n h).2.2.1 (ix2 b k)) _ ?_ ?_ n h
  · intro h
    show k0_pay3 (F := Ideal) (k0_pay16 (yblk m c ⟨0, h⟩)) (k0_pay7 (F := Ideal)) (ix2 b k) = _
    rw [pay3_apply, pay7_apply, pay16_apply]
    refine congrArg (fun z : EReal => _ + z) ?_
    unfold part
    rw [dif_pos (by omega : 0 < 64)]
    refine Finset.sum_congr rfl fun r _ => Finset.sum_congr rfl fun w _ => ?_
    rw [yblk_apply]
    rfl
  · intro n h
    show k0_pay3 (F := Ideal) (k0_pay16 (yblk m c ⟨n + 1, h⟩)) (chain m c n _).2.2.1 (ix2 b k) = _
    rw [pay3_apply, pay16_apply]
    refine congrArg (fun z : EReal => _ + z) ?_
    unfold part
    rw [dif_pos (by omega : n + 1 < 64)]
    refine Finset.sum_congr rfl fun r _ => Finset.sum_congr rfl fun w _ => ?_
    rw [yblk_apply]
    rfl

/-- The negative log-likelihood after point `n`. -/
theorem chain4_apply (c : Dev nD) (b : Fin 16) (n : ℕ) (h : n < cfg0.N) :
    (chain m c n h).2.2.2 (ix1 b)
      = acc (part fun hh => ∑ w : Fin 512, nllTerm (pix (X m c) b hh w) (Y m c b hh w)) n := by
  have hN : cfg0.N = 64 := N_0
  refine eq_acc (fun n h => (chain m c n h).2.2.2 (ix1 b)) _ ?_ ?_ n h
  · intro h
    show k0_pay4 (F := Ideal) (k0_pay17 (xblk m c ⟨0, h⟩) (yblk m c ⟨0, h⟩)) (k0_pay8 (F := Ideal)) (ix1 b) = _
    rw [pay4_apply, pay8_apply]
    refine congrArg (fun z : EReal => _ + z) ?_
    unfold part
    rw [dif_pos (by omega : 0 < 64)]
    refine Finset.sum_congr rfl fun r _ => Finset.sum_congr rfl fun w _ => ?_
    rw [pixB_xblk, yblk_apply]
    rfl
  · intro n h
    show k0_pay4 (F := Ideal) (k0_pay17 (xblk m c ⟨n + 1, h⟩) (yblk m c ⟨n + 1, h⟩)) (chain m c n _).2.2.2 (ix1 b) = _
    rw [pay4_apply]
    refine congrArg (fun z : EReal => _ + z) ?_
    unfold part
    rw [dif_pos (by omega : n + 1 < 64)]
    refine Finset.sum_congr rfl fun r _ => Finset.sum_congr rfl fun w _ => ?_
    rw [pixB_xblk, yblk_apply]
    rfl

/-! ## After the last point -/

/-- The labelled probability mass. -/
theorem last1_apply (c : Dev nD) (b : Fin 16) (k : Fin 8) : (last m c).1 (ix2 b k) = tpS (X m c) (Y m c) b k := by
  show (chain m c 63 h63).1 (ix2 b k) = _
  rw [chain1_apply, acc_part]
  rfl

/-- The whole probability mass. -/
theorem last2_apply (c : Dev nD) (b : Fin 16) (k : Fin 8) : (last m c).2.1 (ix2 b k) = psS (X m c) b k := by
  show (chain m c 63 h63).2.1 (ix2 b k) = _
  rw [chain2_apply, acc_part]
  rfl

/-- The label count. -/
theorem last3_apply (c : Dev nD) (b : Fin 16) (k : Fin 8) : (last m c).2.2.1 (ix2 b k) = cntS (Y m c) b k := by
  show (chain m c 63 h63).2.2.1 (ix2 b k) = _
  rw [chain3_apply, acc_part]
  rfl

/-- The negative log-likelihood. -/
theorem last4_apply (c : Dev nD) (b : Fin 16) : (last m c).2.2.2 (ix1 b) = nllS (X m c) (Y m c) b := by
  show (chain m c 63 h63).2.2.2 (ix1 b) = _
  rw [chain4_apply, acc_part]
  rfl

end Cert.KernelIdeal.Closed

end
-- ==== Proof.RefStages.lean ====
/-
  The reference program's result, read stretch by stretch.  Its 107 host operations are cut into six stretches,
  each with few values going in and out: the softmax of the scores; the label mask and the three statistics
  (labelled probability mass, whole probability mass, label counts); the dice part of the loss; the log-softmax;
  the take along the class axis at the labels; the mean negative log-likelihood and the final sum.  Each stretch
  is read as the stage functions of its values (one operation each), and the stretches are joined by folding the
  operations over the buffer contents one stretch after the other.  The argument arrays pass through every stretch.
-/
import proofs.«424131_j11587821765242_1_alg».proof.Proof.RefRead
import Idealize.ShloMosaic.Lib.StableHlo.Run

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The six stretches -/

abbrev opsA : List (HloOp τ sig (Elt F)) := List.take 14 (ops (F := F))
abbrev opsB : List (HloOp τ sig (Elt F)) := List.take 18 (List.drop 14 (ops (F := F)))
abbrev opsC : List (HloOp τ sig (Elt F)) := List.take 27 (List.drop 18 (List.drop 14 (ops (F := F))))
abbrev opsD : List (HloOp τ sig (Elt F)) := List.take 15 (List.drop 27 (List.drop 18 (List.drop 14 (ops (F := F)))))
abbrev opsE : List (HloOp τ sig (Elt F)) := List.take 23 (List.drop 15 (List.drop 27 (List.drop 18 (List.drop 14 (ops (F := F))))))
abbrev opsG : List (HloOp τ sig (Elt F)) := List.drop 23 (List.drop 15 (List.drop 27 (List.drop 18 (List.drop 14 (ops (F := F))))))

/-- Folding a list of operations is folding its first `n`, then the rest. -/
theorem after_take_drop (n : ℕ) (l : List (HloOp τ sig (Elt F))) (V : Valuation τ sig (Elt F)) :
    after l V = after (l.drop n) (after (l.take n) V) := by
  rw [← after_append, List.take_append_drop]

/-- The whole program is the six stretches in order. -/
theorem after_ops (V : Valuation τ sig (Elt F)) :
    after (ops (F := F)) V = after opsG (after opsE (after opsD (after opsC (after opsB (after opsA V))))) := by
  rw [after_take_drop 14 (ops (F := F)) V,
    after_take_drop 18 (List.drop 14 (ops (F := F))) _,
    after_take_drop 27 (List.drop 18 (List.drop 14 (ops (F := F)))) _,
    after_take_drop 15 (List.drop 27 (List.drop 18 (List.drop 14 (ops (F := F))))) _,
    after_take_drop 23 (List.drop 15 (List.drop 27 (List.drop 18 (List.drop 14 (ops (F := F)))))) _]

/-! ## What passes through a stretch untouched -/

set_option maxRecDepth 8192
theorem keepA_arg0 (V : Valuation τ sig (Elt F)) :
    after (opsA (F := F)) V (Proc.devRef .tc main_arg0) = V (Proc.devRef .tc main_arg0) := by
  simp only [opsA, ops, List.take, List.drop]
  after_results

theorem keepA_arg1 (V : Valuation τ sig (Elt F)) :
    after (opsA (F := F)) V (Proc.devRef .tc main_arg1) = V (Proc.devRef .tc main_arg1) := by
  simp only [opsA, ops, List.take, List.drop]
  after_results

theorem keepB_arg0 (V : Valuation τ sig (Elt F)) :
    after (opsB (F := F)) V (Proc.devRef .tc main_arg0) = V (Proc.devRef .tc main_arg0) := by
  simp only [opsB, ops, List.take, List.drop]
  after_results

theorem keepB_arg1 (V : Valuation τ sig (Elt F)) :
    after (opsB (F := F)) V (Proc.devRef .tc main_arg1) = V (Proc.devRef .tc main_arg1) := by
  simp only [opsB, ops, List.take, List.drop]
  after_results

theorem keepC_arg0 (V : Valuation τ sig (Elt F)) :
    after (opsC (F := F)) V (Proc.devRef .tc main_arg0) = V (Proc.devRef .tc main_arg0) := by
  simp only [opsC, ops, List.take, List.drop]
  after_results

theorem keepC_arg1 (V : Valuation τ sig (Elt F)) :
    after (opsC (F := F)) V (Proc.devRef .tc main_arg1) = V (Proc.devRef .tc main_arg1) := by
  simp only [opsC, ops, List.take, List.drop]
  after_results

theorem keepD_arg0 (V : Valuation τ sig (Elt F)) :
    after (opsD (F := F)) V (Proc.devRef .tc main_arg0) = V (Proc.devRef .tc main_arg0) := by
  simp only [opsD, ops, List.take, List.drop]
  after_results

theorem keepD_arg1 (V : Valuation τ sig (Elt F)) :
    after (opsD (F := F)) V (Proc.devRef .tc main_arg1) = V (Proc.devRef .tc main_arg1) := by
  simp only [opsD, ops, List.take, List.drop]
  after_results

theorem keepE_arg0 (V : Valuation τ sig (Elt F)) :
    after (opsE (F := F)) V (Proc.devRef .tc main_arg0) = V (Proc.devRef .tc main_arg0) := by
  simp only [opsE, ops, List.take, List.drop]
  after_results

theorem keepE_arg1 (V : Valuation τ sig (Elt F)) :
    after (opsE (F := F)) V (Proc.devRef .tc main_arg1) = V (Proc.devRef .tc main_arg1) := by
  simp only [opsE, ops, List.take, List.drop]
  after_results

theorem keepG_arg0 (V : Valuation τ sig (Elt F)) :
    after (opsG (F := F)) V (Proc.devRef .tc main_arg0) = V (Proc.devRef .tc main_arg0) := by
  simp only [opsG, ops, List.take, List.drop]
  after_results

theorem keepG_arg1 (V : Valuation τ sig (Elt F)) :
    after (opsG (F := F)) V (Proc.devRef .tc main_arg1) = V (Proc.devRef .tc main_arg1) := by
  simp only [opsG, ops, List.take, List.drop]
  after_results

theorem keepD_v41 (V : Valuation τ sig (Elt F)) :
    after (opsD (F := F)) V (Proc.devRef .tc main_v41) = V (Proc.devRef .tc main_v41) := by
  simp only [opsD, ops, List.take, List.drop]
  after_results

theorem keepE_v41 (V : Valuation τ sig (Elt F)) :
    after (opsE (F := F)) V (Proc.devRef .tc main_v41) = V (Proc.devRef .tc main_v41) := by
  simp only [opsE, ops, List.take, List.drop]
  after_results

/-! ## What each stretch computes -/

/-- The first stretch: the softmax of the scores. -/
theorem stretchA_v10 (V : Valuation τ sig (Elt F)) :
    after (opsA (F := F)) V (Proc.devRef .tc main_v10) = val_main_v10 (F := F) (V (Proc.devRef .tc main_arg0)) := by
  simp only [opsA, ops, List.take, List.drop]
  after_results
  rfl

/-- The second stretch: the labelled probability mass, -/
theorem stretchB_v18 (V : Valuation τ sig (Elt F)) (x0 : (⟨S16x8x512x512, .f32⟩ : BufTy).Contents (Elt F)) (x1 : (⟨S16x512x512, .i32⟩ : BufTy).Contents (Elt F))
    (h10 : V (Proc.devRef .tc main_v10) = val_main_v10 (F := F) x0) (h1 : V (Proc.devRef .tc main_arg1) = x1) :
    after (opsB (F := F)) V (Proc.devRef .tc main_v18) = val_main_v18 (F := F) x0 x1 := by
  simp only [opsB, ops, List.take, List.drop]
  after_results
  rw [h10, h1]
  rfl

/-- the whole probability mass, -/
theorem stretchB_v19 (V : Valuation τ sig (Elt F)) (x0 : (⟨S16x8x512x512, .f32⟩ : BufTy).Contents (Elt F))
    (h10 : V (Proc.devRef .tc main_v10) = val_main_v10 (F := F) x0) :
    after (opsB (F := F)) V (Proc.devRef .tc main_v19) = val_main_v19 (F := F) x0 := by
  simp only [opsB, ops, List.take, List.drop]
  after_results
  rw [h10]
  rfl

/-- and the label counts. -/
theorem stretchB_v22 (V : Valuation τ sig (Elt F)) (x1 : (⟨S16x512x512, .i32⟩ : BufTy).Contents (Elt F))
    (h1 : V (Proc.devRef .tc main_arg1) = x1) :
    after (opsB (F := F)) V (Proc.devRef .tc main_v22) = val_main_v22 (F := F) x1 := by
  simp only [opsB, ops, List.take, List.drop]
  after_results
  rw [h1]
  rfl

/-- The last stretch: the mean negative log-likelihood added to the dice part. -/
theorem stretchG_v50 (V : Valuation τ sig (Elt F)) (x0 : (⟨S16x8x512x512, .f32⟩ : BufTy).Contents (Elt F)) (x1 : (⟨S16x512x512, .i32⟩ : BufTy).Contents (Elt F))
    (h44 : V (Proc.devRef .tc main_v44) = val_main_v44 (F := F) x0 x1) (h41 : V (Proc.devRef .tc main_v41) = val_main_v41 (F := F) x0 x1) :
    after (opsG (F := F)) V (Proc.devRef .tc main_v50) = val_main_v50 (F := F) x0 x1 := by
  simp only [opsG, ops, List.take, List.drop]
  after_results
  rw [h44, h41]
  rfl

end Cert.ReferenceIdeal.Stages

end
-- ==== Proof.RefStageC.lean ====
/-
  The reference's third stretch of operations, read: from the three statistics to the dice part of the loss.
-/
import proofs.«424131_j11587821765242_1_alg».proof.Proof.RefStages

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192

set_option maxHeartbeats 4000000 in
/-- The third stretch: the dice part of the loss. -/
theorem stretchC_v41 (V : Valuation τ sig (Elt F)) (x0 : (⟨S16x8x512x512, .f32⟩ : BufTy).Contents (Elt F)) (x1 : (⟨S16x512x512, .i32⟩ : BufTy).Contents (Elt F))
    (h18 : V (Proc.devRef .tc main_v18) = val_main_v18 (F := F) x0 x1) (h19 : V (Proc.devRef .tc main_v19) = val_main_v19 (F := F) x0)
    (h22 : V (Proc.devRef .tc main_v22) = val_main_v22 (F := F) x1) :
    after (opsC (F := F)) V (Proc.devRef .tc main_v41) = val_main_v41 (F := F) x0 x1 := by
  simp only [opsC, ops, List.take, List.drop]
  after_results_simp
  rw [h18, h19, h22]
  rfl

end Cert.ReferenceIdeal.Stages

end
-- ==== Proof.RefCasts.lean ====
/-
  Values of the reference's called functions live in buffers through a typed view whose two directions are
  transports along the equation "the buffer's type is the value's type".  Going into the buffer and back out is
  the identity; and at a buffer whose type IS the value's type each direction alone is the identity.
-/
import proofs.«424131_j11587821765242_1_alg».proof.Proof.RefStages

noncomputable section

namespace Cert.ReferenceIdeal.Stages

open Cert.ReferenceIdeal Cert.ReferenceIdeal.Gen
open Idealize.ShloMosaic Idealize.ShloMosaic.TcCoe Idealize.SL.Sem Idealize.ShloMosaic.StableHlo

variable {F : FTy → Type} [FloatOps F]

/-- Into the buffer and back out: the value. -/
theorem ofBuf_toBuf {Val : EltTy → Type} {T : BufTy} (x : TRef sig T) (v : T.Contents Val) : x.ofBuf (x.toBuf v) = v := by
  obtain ⟨r, h, _, _⟩ := x
  subst h
  rfl

set_option maxRecDepth 8192

/-- Out of the scores' buffer: the contents. -/
theorem ofBuf_arg0 (e : (⟨S16x8x512x512, .f32⟩ : BufTy).Contents (Elt F)) :
    (TRef.of (T := ⟨S16x8x512x512, .f32⟩) main_arg0).ofBuf e = e := rfl
/-- Out of the buffer of the labels spread over a unit class axis: the contents. -/
theorem ofBuf_v43 (e : (⟨S16x1x512x512, .i32⟩ : BufTy).Contents (Elt F)) :
    (TRef.of (T := ⟨S16x1x512x512, .i32⟩) main_v43).ofBuf e = e := rfl
/-- Out of the buffer of the values taken at the labels: the contents. -/
theorem ofBuf_v44 (e : (⟨S16x1x512x512, .f32⟩ : BufTy).Contents (Elt F)) :
    (TRef.of (T := ⟨S16x1x512x512, .f32⟩) main_v44).ofBuf e = e := rfl

end Cert.ReferenceIdeal.Stages

end
-- ==== Proof.RefStageD.lean ====
/-
  The reference's fourth stretch of operations, read in two halves: the log-softmax of the scores.
-/
import proofs.«424131_j11587821765242_1_alg».proof.Proof.RefCasts

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192

abbrev opsD1 : List (HloOp τ sig (Elt F)) := List.take 8 (List.drop 27 (List.drop 18 (List.drop 14 (ops (F := F)))))
abbrev opsD2 : List (HloOp τ sig (Elt F)) := List.drop 8 (opsD (F := F))

/-- The fourth stretch in two halves. -/
theorem after_opsD (V : Valuation τ sig (Elt F)) : after (opsD (F := F)) V = after opsD2 (after opsD1 V) := by
  have h : (opsD1 (F := F)) = List.take 8 (opsD (F := F)) := by
    simp only [opsD1, opsD, ops, List.take, List.drop]
  rw [h]
  exact after_take_drop 8 _ V

/-- Its first half: the scores less their largest over the classes. -/
theorem stretchD1 (V : Valuation τ sig (Elt F)) :
    (TRef.of (T := ⟨S16x8x512x512, .f32⟩) main_call1_v5).ofBuf (after (opsD1 (F := F)) V (Proc.devRef .tc main_call1_v5))
      = val_main_call1_v5 (F := F) ((TRef.of (T := ⟨S16x8x512x512, .f32⟩) main_arg0).ofBuf (V (Proc.devRef .tc main_arg0))) := by
  simp only [opsD1, ops, List.take, List.drop]
  after_results
  simp only [ofBuf_toBuf]
  rfl

/-- Its second half: less the logarithm of the summed exponentials. -/
theorem stretchD2 (V : Valuation τ sig (Elt F)) (x0 : (⟨S16x8x512x512, .f32⟩ : BufTy).Contents (Elt F))
    (h5 : (TRef.of (T := ⟨S16x8x512x512, .f32⟩) main_call1_v5).ofBuf (V (Proc.devRef .tc main_call1_v5)) = val_main_call1_v5 (F := F) x0) :
    (TRef.of (T := ⟨S16x8x512x512, .f32⟩) main_v42).ofBuf (after (opsD2 (F := F)) V (Proc.devRef .tc main_v42)) = val_main_v42 (F := F) x0 := by
  simp only [opsD2, opsD, ops, List.take, List.drop]
  after_results
  simp only [ofBuf_toBuf]
  rw [h5]
  rfl

/-- The fourth stretch: the log-softmax of the scores. -/
theorem stretchD_v42 (V : Valuation τ sig (Elt F)) :
    (TRef.of (T := ⟨S16x8x512x512, .f32⟩) main_v42).ofBuf (after (opsD (F := F)) V (Proc.devRef .tc main_v42))
      = val_main_v42 (F := F) (V (Proc.devRef .tc main_arg0)) := by
  rw [after_opsD]
  exact (stretchD2 (after opsD1 V) _ (stretchD1 V)).trans (congrArg (val_main_v42 (F := F)) (ofBuf_arg0 _))

end Cert.ReferenceIdeal.Stages

end
-- ==== Proof.RefStageE.lean ====
/-
  The reference's fifth stretch of operations, read in three parts: the log-softmax taken along the class axis
  at the labels.
-/
import proofs.«424131_j11587821765242_1_alg».proof.Proof.RefCasts

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192

abbrev opsE1 : List (HloOp τ sig (Elt F)) := List.take 9 (opsE (F := F))
abbrev opsE2 : List (HloOp τ sig (Elt F)) := List.take 10 (List.drop 9 (opsE (F := F)))
abbrev opsE3 : List (HloOp τ sig (Elt F)) := List.drop 10 (List.drop 9 (opsE (F := F)))

/-- The fifth stretch in three parts. -/
theorem after_opsE (V : Valuation τ sig (Elt F)) :
    after (opsE (F := F)) V = after opsE3 (after opsE2 (after opsE1 V)) := by
  rw [after_take_drop 9 (opsE (F := F)) V, after_take_drop 10 (List.drop 9 (opsE (F := F))) _]

/-- Its first part: the labels with negative ones moved up by the class count, reshaped to index vectors. -/
theorem stretchE1 (V : Valuation τ sig (Elt F)) (x1 : (⟨S16x512x512, .i32⟩ : BufTy).Contents (Elt F))
    (h1 : V (Proc.devRef .tc main_arg1) = x1) :
    (TRef.of (T := ⟨S16x1x512x512x1, .i32⟩) main_call2_v5).ofBuf (after (opsE1 (F := F)) V (Proc.devRef .tc main_call2_v5)) = val_main_call2_v5 (F := F) x1 := by
  simp only [opsE1, opsE, ops, List.take, List.drop]
  after_results
  simp only [ofBuf_toBuf, ofBuf_v43]
  rw [h1]
  rfl

theorem keep_opsE1_v42 (V : Valuation τ sig (Elt F)) :
    after (opsE1 (F := F)) V (Proc.devRef .tc main_v42) = V (Proc.devRef .tc main_v42) := by
  simp only [opsE1, opsE, ops, List.take, List.drop]
  after_results

/-- Its second part: which index vectors are within the class range. -/
theorem stretchE2 (V : Valuation τ sig (Elt F)) (x1 : (⟨S16x512x512, .i32⟩ : BufTy).Contents (Elt F))
    (h5 : (TRef.of (T := ⟨S16x1x512x512x1, .i32⟩) main_call2_v5).ofBuf (V (Proc.devRef .tc main_call2_v5)) = val_main_call2_v5 (F := F) x1) :
    (TRef.of (T := ⟨S16x1x512x512, .i1⟩) main_call2_v12).ofBuf (after (opsE2 (F := F)) V (Proc.devRef .tc main_call2_v12)) = val_main_call2_v12 (F := F) x1 := by
  simp only [opsE2, opsE, ops, List.take, List.drop]
  after_results
  simp only [ofBuf_toBuf]
  rw [h5]
  rfl

theorem keep_opsE2_v42 (V : Valuation τ sig (Elt F)) :
    after (opsE2 (F := F)) V (Proc.devRef .tc main_v42) = V (Proc.devRef .tc main_v42) := by
  simp only [opsE2, opsE, ops, List.take, List.drop]
  after_results

theorem keep_opsE2_call2_v5 (V : Valuation τ sig (Elt F)) :
    after (opsE2 (F := F)) V (Proc.devRef .tc main_call2_v5) = V (Proc.devRef .tc main_call2_v5) := by
  simp only [opsE2, opsE, ops, List.take, List.drop]
  after_results

/-- Its third part: the gather at the index vectors, a filler where out of range. -/
theorem stretchE3 (V : Valuation τ sig (Elt F)) (x0 : (⟨S16x8x512x512, .f32⟩ : BufTy).Contents (Elt F)) (x1 : (⟨S16x512x512, .i32⟩ : BufTy).Contents (Elt F))
    (h42 : (TRef.of (T := ⟨S16x8x512x512, .f32⟩) main_v42).ofBuf (V (Proc.devRef .tc main_v42)) = val_main_v42 (F := F) x0)
    (h5 : (TRef.of (T := ⟨S16x1x512x512x1, .i32⟩) main_call2_v5).ofBuf (V (Proc.devRef .tc main_call2_v5)) = val_main_call2_v5 (F := F) x1)
    (h12 : (TRef.of (T := ⟨S16x1x512x512, .i1⟩) main_call2_v12).ofBuf (V (Proc.devRef .tc main_call2_v12)) = val_main_call2_v12 (F := F) x1) :
    (TRef.of (T := ⟨S16x1x512x512, .f32⟩) main_v44).ofBuf (after (opsE3 (F := F)) V (Proc.devRef .tc main_v44)) = val_main_v44 (F := F) x0 x1 := by
  simp only [opsE3, opsE, ops, List.take, List.drop]
  after_results
  simp only [ofBuf_toBuf]
  rw [h42, h5, h12]
  rfl

/-- The fifth stretch: the log-softmax taken along the class axis at the labels. -/
theorem stretchE_v44 (V : Valuation τ sig (Elt F)) (x0 : (⟨S16x8x512x512, .f32⟩ : BufTy).Contents (Elt F)) (x1 : (⟨S16x512x512, .i32⟩ : BufTy).Contents (Elt F))
    (h42 : (TRef.of (T := ⟨S16x8x512x512, .f32⟩) main_v42).ofBuf (V (Proc.devRef .tc main_v42)) = val_main_v42 (F := F) x0) (h1 : V (Proc.devRef .tc main_arg1) = x1) :
    after (opsE (F := F)) V (Proc.devRef .tc main_v44) = val_main_v44 (F := F) x0 x1 := by
  rw [after_opsE]
  have e5 := stretchE1 V x1 h1
  have e42 := (congrArg (TRef.of (T := ⟨S16x8x512x512, .f32⟩) main_v42).ofBuf (keep_opsE1_v42 V)).trans h42
  have f12 := stretchE2 (after opsE1 V) x1 e5
  have f42 := (congrArg (TRef.of (T := ⟨S16x8x512x512, .f32⟩) main_v42).ofBuf (keep_opsE2_v42 (after opsE1 V))).trans e42
  have f5 := (congrArg (TRef.of (T := ⟨S16x1x512x512x1, .i32⟩) main_call2_v5).ofBuf (keep_opsE2_call2_v5 (after opsE1 V))).trans e5
  exact (ofBuf_v44 _).symm.trans (stretchE3 (after opsE2 (after opsE1 V)) x0 x1 f42 f5 f12)

end Cert.ReferenceIdeal.Stages

end
-- ==== Proof.RefFinal.lean ====
/-
  The reference program run and read: folding its six stretches of operations over the launch contents leaves, in
  the result buffer, the last stage function of the two argument arrays; and the argument arrays pass through
  every stretch, so they end unchanged.
-/
import proofs.«424131_j11587821765242_1_alg».proof.Proof.RefStageC
import proofs.«424131_j11587821765242_1_alg».proof.Proof.RefStageD
import proofs.«424131_j11587821765242_1_alg».proof.Proof.RefStageE

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The scores pass through all six stretches. -/
theorem keep_arg0 (V : Valuation τ sig (Elt F)) :
    after (ops (F := F)) V (Proc.devRef .tc main_arg0) = V (Proc.devRef .tc main_arg0) := by
  rw [after_ops, keepG_arg0, keepE_arg0, keepD_arg0, keepC_arg0, keepB_arg0, keepA_arg0]

/-- The labels pass through all six stretches. -/
theorem keep_arg1 (V : Valuation τ sig (Elt F)) :
    after (ops (F := F)) V (Proc.devRef .tc main_arg1) = V (Proc.devRef .tc main_arg1) := by
  rw [after_ops, keepG_arg1, keepE_arg1, keepD_arg1, keepC_arg1, keepB_arg1, keepA_arg1]

/-- The result buffer after the whole program: the last stage of the two arguments. -/
theorem result_eq (V : Valuation τ sig (Elt F)) :
    after (ops (F := F)) V (Proc.devRef .tc main_v50)
      = val_main_v50 (F := F) (V (Proc.devRef .tc main_arg0)) (V (Proc.devRef .tc main_arg1)) := by
  rw [after_ops]
  -- the contents after each stretch, at the values that matter later
  have a10 := stretchA_v10 V
  have a0 := keepA_arg0 V
  have a1 := keepA_arg1 V
  have b18 := stretchB_v18 (after opsA V) _ _ a10 a1
  have b19 := stretchB_v19 (after opsA V) _ a10
  have b22 := stretchB_v22 (after opsA V) _ a1
  have b0 := (keepB_arg0 (after opsA V)).trans a0
  have b1 := (keepB_arg1 (after opsA V)).trans a1
  have c41 := stretchC_v41 (after opsB (after opsA V)) _ _ b18 b19 b22
  have c0 := (keepC_arg0 (after opsB (after opsA V))).trans b0
  have c1 := (keepC_arg1 (after opsB (after opsA V))).trans b1
  have d42 := (stretchD_v42 (after opsC (after opsB (after opsA V)))).trans (congrArg (val_main_v42 (F := F)) c0)
  have d41 := (keepD_v41 (after opsC (after opsB (after opsA V)))).trans c41
  have d1 := (keepD_arg1 (after opsC (after opsB (after opsA V)))).trans c1
  have e44 := stretchE_v44 (after opsD (after opsC (after opsB (after opsA V)))) _ _ d42 d1
  have e41 := (keepE_v41 (after opsD (after opsC (after opsB (after opsA V))))).trans d41
  exact stretchG_v50 (after opsE (after opsD (after opsC (after opsB (after opsA V))))) _ _ e44 e41

/-- On every device, from any memory with zero counters: every weakly fair execution of the reference terminates
    with the result at the last stage of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = val_main_v50 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v50).trans (result_eq (launchContents m c)),
      (h c main_arg0).trans (keep_arg0 (launchContents m c)),
      (h c main_arg1).trans (keep_arg1 (launchContents m c))⟩)
    (Cert.ReferenceIdeal.ValueP.run m ρ)

end Cert.ReferenceIdeal.Stages

end
-- ==== Proof.RefCount.lean ====
/-
  The reference's label mask and label counts, read entry by entry: the mask bit at `(b, k, h, w)` says the
  pixel's label word is the word of class `k`; the count of class `c` in batch entry `b` is the integer sum of the
  widened mask bits over the 512 × 512 pixels (below 2³¹, so the 32-bit sum is the number), converted to a float.
-/
import proofs.«424131_j11587821765242_1_alg».proof.Proof.RefRead
import proofs.«424131_j11587821765242_1_alg».proof.Proof.Spec
import Idealize.ShloMosaic.PureOps.Ideal.Laws
import Idealize.ShloMosaic.PureOps.Reduce

noncomputable section

open scoped BigOperators

namespace Cert.ReferenceIdeal.Stats

open Idealize.ShloMosaic Idealize.ShloMosaic.ValueIdx Cert.ReferenceIdeal Cert.ReferenceIdeal.ReadP Cert.DiceCE

/-- The label mask: the bit of "the pixel's label word is the word of class `k`". -/
theorem v16_apply (x1 : (⟨S16x512x512, .i32⟩ : BufTy).Contents (Elt Ideal)) (b : Fin 16) (k : Fin 8) (h w : Fin 512) :
    val_main_v16 (F := Ideal) x1 (ix4 b k h w) = if x1 (ix3 b h w) = BitVec.ofNat 32 k.val then 1#1 else 0#1 := by
  rw [val_main_v16_apply, val_main_v14_apply, val_main_v11_apply, val_main_v15_apply, val_main_v13_apply,
    val_main_v12_apply]
  have e1 : idx_main_v11 (idx_main_v14 (ix4 b k h w)) = ix3 b h w := by
    funext a
    match a with
    | ⟨0, _⟩ => rfl
    | ⟨1, _⟩ => rfl
    | ⟨2, _⟩ => rfl
  rw [e1]
  show IntOp.cmpi .eq (x1 (ix3 b h w)) (BitVec.ofNat 32 k.val) = _
  unfold IntOp.cmpi
  by_cases hx : x1 (ix3 b h w) = BitVec.ofNat 32 k.val
  · rw [if_pos hx, hx]
    show BitVec.ofBool (BitVec.ofNat 32 k.val == BitVec.ofNat 32 k.val) = 1#1
    rw [beq_self_eq_true]; rfl
  · rw [if_neg hx]
    show BitVec.ofBool (x1 (ix3 b h w) == BitVec.ofNat 32 k.val) = 0#1
    rw [beq_eq_false_iff_ne.2 hx]; rfl

/-! ### A 32-bit sum of small words -/

/-- A 32-bit sum from zero has the sum of the values as its value while that stays inside the word. -/
private theorem toNat_fold_addi {ι : Type} (S : Finset ι) (x : ι → BitVec 32) (h : ∑ i ∈ S, (x i).toNat < 2 ^ 32) :
    (S.fold IntOp.addi 0#32 x).toNat = ∑ i ∈ S, (x i).toNat := by
  induction S using Finset.cons_induction with
  | empty => simp
  | cons a S ha ih =>
    rw [Finset.sum_cons] at h
    rw [Finset.fold_cons, Finset.sum_cons]
    show (x a + Finset.fold IntOp.addi 0#32 x S).toNat = _
    rw [BitVec.toNat_add, ih (by omega), Nat.mod_eq_of_lt h]

/-! ### The pixels of one batch entry and class -/

/-- The index `(b, c, h, w)` from the pixel `(h, w)`. -/
private def pixEmb (b : Fin 16) (c : Fin 8) : Fin 512 × Fin 512 ↪ S16x8x512x512.Idx :=
  ⟨fun p => ix4 b c p.1 p.2, fun p q e => by
    have e2 := congrFun e 2
    have e3 := congrFun e 3
    exact Prod.ext e2 e3⟩

/-- The indices that drop (axes 2 and 3 removed) to `(b, c)` are the `(b, c, h, w)`. -/
private theorem filter_drop (b : Fin 16) (c : Fin 8) :
    Finset.univ.filter (fun i : S16x8x512x512.Idx => Cert.ReferenceIdeal.Gen.reducesTo_S16x8x512x512_S16x8_d2_3.drop i = ix2 b c)
      = Finset.univ.map (pixEmb b c) := by
  ext i
  simp only [Finset.mem_filter, Finset.mem_univ, true_and, Finset.mem_map, pixEmb, Function.Embedding.coeFn_mk]
  constructor
  · intro hd
    refine ⟨(i 2, i 3), ?_⟩
    have h0 : (i 0).val = b.val := by
      rw [← Shape.ReducesTo.drop_apply_val_of_eq Cert.ReferenceIdeal.Gen.reducesTo_S16x8x512x512_S16x8_d2_3 i 0 0, hd]
    have h1 : (i 1).val = c.val := by
      rw [← Shape.ReducesTo.drop_apply_val_of_eq Cert.ReferenceIdeal.Gen.reducesTo_S16x8x512x512_S16x8_d2_3 i 1 1, hd]
    funext a
    match a with
    | ⟨0, _⟩ => exact Fin.ext h0.symm
    | ⟨1, _⟩ => exact Fin.ext h1.symm
    | ⟨2, _⟩ => rfl
    | ⟨3, _⟩ => rfl
  · rintro ⟨p, rfl⟩
    funext a
    match a with
    | ⟨0, _⟩ => rfl
    | ⟨1, _⟩ => rfl

/-- The widened mask bit's value: one where the label word is the class's word, else zero. -/
private theorem v20_toNat (x1 : (⟨S16x512x512, .i32⟩ : BufTy).Contents (Elt Ideal)) (b : Fin 16) (c : Fin 8) (h w : Fin 512) :
    (val_main_v20 (F := Ideal) x1 (ix4 b c h w)).toNat = if x1 (ix3 b h w) = BitVec.ofNat 32 c.val then 1 else 0 := by
  rw [val_main_v20_apply, v16_apply]
  split_ifs <;> rfl

/-- A count over the 512 × 512 pixels is at most 262144. -/
private theorem count_le (p : Fin 512 → Fin 512 → Prop) [∀ h w, Decidable (p h w)] :
    ∑ h : Fin 512, ∑ w : Fin 512, (if p h w then 1 else 0 : ℕ) ≤ 262144 := by
  calc ∑ h : Fin 512, ∑ w : Fin 512, (if p h w then 1 else 0 : ℕ)
      ≤ ∑ _h : Fin 512, ∑ _w : Fin 512, (1 : ℕ) :=
        Finset.sum_le_sum fun h _ => Finset.sum_le_sum fun w _ => by split_ifs <;> omega
    _ = 262144 := by
        simp only [Finset.sum_const, Finset.card_univ, Fintype.card_fin, smul_eq_mul, mul_one]

/-- The 32-bit pixel count of batch entry `b` and class `c` has the number of labelled pixels as its value:
    at most 262144, the sum stays inside the word. -/
private theorem v21_toNat (x1 : (⟨S16x512x512, .i32⟩ : BufTy).Contents (Elt Ideal)) (b : Fin 16) (c : Fin 8) :
    (val_main_v21 (F := Ideal) x1 (ix2 b c)).toNat
      = ∑ h : Fin 512, ∑ w : Fin 512, (if x1 (ix3 b h w) = BitVec.ofNat 32 c.val then 1 else 0 : ℕ) := by
  have key : ∑ i ∈ Finset.univ.map (pixEmb b c), (val_main_v20 (F := Ideal) x1 i).toNat
      = ∑ h : Fin 512, ∑ w : Fin 512, (if x1 (ix3 b h w) = BitVec.ofNat 32 c.val then 1 else 0 : ℕ) := by
    rw [Finset.sum_map, Fintype.sum_prod_type]
    exact Finset.sum_congr rfl fun h _ => Finset.sum_congr rfl fun w _ => v20_toNat x1 b c h w
  have hle := count_le (fun h w => x1 (ix3 b h w) = BitVec.ofNat 32 c.val)
  unfold val_main_v21
  rw [Host.reduce_eq_fold, filter_drop]
  show (Finset.fold IntOp.addi 0#32 (val_main_v20 (F := Ideal) x1) (Finset.univ.map (pixEmb b c))).toNat = _
  rw [toNat_fold_addi _ _ (by rw [key]; omega), key]

/-- A natural sum, cast to the extended reals, is the sum of the casts. -/
private theorem coe_nat_sum {ι : Type} (S : Finset ι) (f : ι → ℕ) :
    (((∑ i ∈ S, f i : ℕ) : ℝ) : EReal) = ∑ i ∈ S, ((f i : ℝ) : EReal) := by
  induction S using Finset.cons_induction with
  | empty => simp
  | cons a S ha ih => rw [Finset.sum_cons, Finset.sum_cons, Nat.cast_add, EReal.coe_add, ih]

/-- The number of pixels of batch entry `b` labelled `c`, as an extended real. -/
theorem v22_apply (x1 : (⟨S16x512x512, .i32⟩ : BufTy).Contents (Elt Ideal)) (b : Fin 16) (c : Fin 8) :
    val_main_v22 (F := Ideal) x1 (ix2 b c) = cntS (ofArr3 x1) b c := by
  rw [val_main_v22_apply]
  show (((val_main_v21 (F := Ideal) x1 (ix2 b c)).toInt : ℝ) : EReal) = _
  have hn := v21_toNat x1 b c
  have hle := count_le (fun h w => x1 (ix3 b h w) = BitVec.ofNat 32 c.val)
  rw [BitVec.toInt_eq_toNat_of_lt (by rw [hn]; omega), hn, Int.cast_natCast, coe_nat_sum]
  unfold cntS
  refine Finset.sum_congr rfl fun h _ => ?_
  rw [coe_nat_sum]
  refine Finset.sum_congr rfl fun w _ => ?_
  unfold cntTerm ofArr3
  split_ifs <;> simp

end Cert.ReferenceIdeal.Stats

end
-- ==== Proof.RefSoftmax.lean ====
/-
  The reference's softmax and its two probability sums, read entry by entry: the softmax at `(b, k, h, w)` is the
  pixel's probability of class `k`; summed over the 512 × 512 pixels, with and without the label mask, it gives the
  labelled and the whole probability mass of each batch entry and class.
-/
import proofs.«424131_j11587821765242_1_alg».proof.Proof.RefCount
import Idealize.ShloMosaic.Lib.IdealHost

noncomputable section

open scoped BigOperators

namespace Cert.ReferenceIdeal.Stats

open Idealize.ShloMosaic Idealize.ShloMosaic.ValueIdx Cert.ReferenceIdeal Cert.ReferenceIdeal.ReadP Cert.DiceCE

/-! ## The class axis: the largest score and the sum of the exponentials at one pixel -/

/-- The shape fact of a reduction over the class axis, in the form that names the inserted index. -/
private theorem classRed : S16x8x512x512.Reduces [1] S16x512x512 := by decide

/-- Inserting class `k` into the pixel index `(b, h, w)` gives `(b, k, h, w)`. -/
private theorem classLift (b : Fin 16) (k : Fin 8) (h w : Fin 512) :
    classRed.lift (ix3 b h w) k = ix4 b k h w := by
  funext a
  apply Fin.ext
  match a with
  | ⟨0, _⟩ => rfl
  | ⟨1, _⟩ => rfl
  | ⟨2, _⟩ => rfl
  | ⟨3, _⟩ => rfl

/-- The word of `-∞` is the bottom of the extended reals. -/
private theorem ofBits_negInf_f32 : Ideal.ofBits .f32 0xFF800000#32 = (⊥ : EReal) := by
  simp [Ideal.ofBits, Ideal.ieee]

/-- The maximum over the class axis from `-∞` is the pixel's largest score. -/
private theorem v0_apply (x0 : (⟨S16x8x512x512, .f32⟩ : BufTy).Contents (Elt Ideal)) (b : Fin 16) (h w : Fin 512) :
    val_main_v0 (F := Ideal) x0 (ix3 b h w) = pmax (pix (ofArr4 x0) b h w) := by
  have key := Host.reduce_eq_fold_single (s := S16x8x512x512) (t := S16x512x512) (a := (1 : Fin 4)) (u := S_)
    (FloatOps.maximumf (F := Ideal) (φ := .f32)) x0 (val_main_cst (F := Ideal))
    Gen.reducesTo_S16x8x512x512_S16x512x512_d1 classRed Gen.h_S_ (ix3 b h w)
  unfold val_main_v0
  refine key.trans ?_
  have hinit : val_main_cst (F := Ideal) (Shape.Idx.first Gen.h_S_) = (⊥ : EReal) := by
    rw [val_main_cst_apply]; exact ofBits_negInf_f32
  have hfun : (x0 ∘ classRed.lift (ix3 b h w)) = pix (ofArr4 x0) b h w := by
    funext k; exact congrArg x0 (classLift b k h w)
  rw [hinit, hfun]
  rfl

/-- The maximum with the broadcast `-∞` changes nothing. -/
private theorem v2_apply (x0 : (⟨S16x8x512x512, .f32⟩ : BufTy).Contents (Elt Ideal)) (b : Fin 16) (h w : Fin 512) :
    val_main_v2 (F := Ideal) x0 (ix3 b h w) = pmax (pix (ofArr4 x0) b h w) := by
  rw [val_main_v2_apply, val_main_v1_apply, val_main_cst_0_apply, v0_apply, Ideal.maximumf_def, Ideal.ofBits_def,
    ofBits_negInf_f32]
  exact max_bot_left _

/-- Broadcast back over the class axis, the largest score is read at the entry's pixel. -/
private theorem v4_apply (x0 : (⟨S16x8x512x512, .f32⟩ : BufTy).Contents (Elt Ideal)) (b : Fin 16) (k : Fin 8) (h w : Fin 512) :
    val_main_v4 (F := Ideal) x0 (ix4 b k h w) = pmax (pix (ofArr4 x0) b h w) := by
  rw [val_main_v4_apply, val_main_v3_apply]
  have hi : idx_main_v3 (idx_main_v4 (ix4 b k h w)) = ix3 b h w := by
    funext a
    match a with
    | ⟨0, _⟩ => rfl
    | ⟨1, _⟩ => rfl
    | ⟨2, _⟩ => rfl
  rw [hi, v2_apply]

/-- The exponential of the shifted score. -/
private theorem v6_apply (x0 : (⟨S16x8x512x512, .f32⟩ : BufTy).Contents (Elt Ideal)) (b : Fin 16) (k : Fin 8) (h w : Fin 512) :
    val_main_v6 (F := Ideal) x0 (ix4 b k h w) = expz (pix (ofArr4 x0) b h w) k := by
  rw [val_main_v6_apply, val_main_v5_apply, v4_apply, Ideal.subf_def, Ideal.hostUnary_exp_def]
  rfl

/-- The sum over the class axis from zero is the pixel's sum of exponentials. -/
private theorem v7_apply (x0 : (⟨S16x8x512x512, .f32⟩ : BufTy).Contents (Elt Ideal)) (b : Fin 16) (h w : Fin 512) :
    val_main_v7 (F := Ideal) x0 (ix3 b h w) = sumexp (pix (ofArr4 x0) b h w) := by
  rw [val_main_v7_apply, val_main_cst_1_apply, Ideal.ofBits_def, Ideal.ofBits_zero_f32, zero_add]
  unfold sumexp
  refine Finset.sum_congr rfl fun k _ => ?_
  have hi : idx_main_v7 (ix3 b h w) k = ix4 b k h w := by
    funext a
    match a with
    | ⟨0, _⟩ => rfl
    | ⟨1, _⟩ => rfl
    | ⟨2, _⟩ => rfl
    | ⟨3, _⟩ => rfl
  rw [hi, v6_apply]

/-- Broadcast back over the class axis, the sum of exponentials is read at the entry's pixel. -/
private theorem v9_apply (x0 : (⟨S16x8x512x512, .f32⟩ : BufTy).Contents (Elt Ideal)) (b : Fin 16) (k : Fin 8) (h w : Fin 512) :
    val_main_v9 (F := Ideal) x0 (ix4 b k h w) = sumexp (pix (ofArr4 x0) b h w) := by
  rw [val_main_v9_apply, val_main_v8_apply]
  have hi : idx_main_v8 (idx_main_v9 (ix4 b k h w)) = ix3 b h w := by
    funext a
    match a with
    | ⟨0, _⟩ => rfl
    | ⟨1, _⟩ => rfl
    | ⟨2, _⟩ => rfl
  rw [hi, v7_apply]

/-- The softmax probability of class `k` at pixel `(b, h, w)`. -/
theorem v10_apply (x0 : (⟨S16x8x512x512, .f32⟩ : BufTy).Contents (Elt Ideal)) (b : Fin 16) (k : Fin 8) (h w : Fin 512) :
    val_main_v10 (F := Ideal) x0 (ix4 b k h w) = prob (pix (ofArr4 x0) b h w) k := by
  rw [val_main_v10_apply, v6_apply, v9_apply, Ideal.hostDivf_def]
  rfl

/-! ## The two pixel axes: a sum over them into `[16, 8]` as a double sum over the coordinates -/

/-- Dropping the two pixel axes of `(b, c, h, w)` leaves `(b, c)`. -/
private theorem pixelDrop_ix4 (b : Fin 16) (c : Fin 8) (h w : Fin 512) :
    Gen.reducesTo_S16x8x512x512_S16x8_d2_3.drop (ix4 b c h w) = ix2 b c := by
  funext a
  match a with
  | ⟨0, _⟩ => rfl
  | ⟨1, _⟩ => rfl

/-- An index that drops to `(b, c)` is `(b, c)` followed by its own two pixel coordinates. -/
private theorem eq_ix4_of_pixelDrop (i : S16x8x512x512.Idx) (b : Fin 16) (c : Fin 8)
    (hd : Gen.reducesTo_S16x8x512x512_S16x8_d2_3.drop i = ix2 b c) : i = ix4 b c (i 2) (i 3) := by
  have h0 : i 0 = b := Fin.ext (congrArg Fin.val (congrFun hd ⟨0, by decide⟩))
  have h1 : i 1 = c := Fin.ext (congrArg Fin.val (congrFun hd ⟨1, by decide⟩))
  funext a
  match a with
  | ⟨0, _⟩ => exact h0
  | ⟨1, _⟩ => exact h1
  | ⟨2, _⟩ => rfl
  | ⟨3, _⟩ => rfl

/-- The entries of a `[16, 8, 512, 512]` array that reduce to `(b, c)`, summed, are the double sum over the two pixel
    coordinates of the array at `(b, c, h, w)`. -/
private theorem sum_filter_pixelDrop (f : S16x8x512x512.Idx → EReal) (b : Fin 16) (c : Fin 8) :
    ∑ i ∈ Finset.univ.filter (fun i => Gen.reducesTo_S16x8x512x512_S16x8_d2_3.drop i = ix2 b c), f i
      = ∑ h : Fin 512, ∑ w : Fin 512, f (ix4 b c h w) := by
  rw [← Fintype.sum_prod_type' (f := fun (h w : Fin 512) => f (ix4 b c h w))]
  refine Finset.sum_nbij' (fun i => ((i 2, i 3) : Fin 512 × Fin 512)) (fun p => ix4 b c p.1 p.2) ?_ ?_ ?_ ?_ ?_
  · intro i _; exact Finset.mem_univ _
  · intro p _; exact Finset.mem_filter.2 ⟨Finset.mem_univ _, pixelDrop_ix4 b c p.1 p.2⟩
  · intro i hi; exact (eq_ix4_of_pixelDrop i b c (Finset.mem_filter.1 hi).2).symm
  · intro p _; rfl
  · intro i hi; exact congrArg f (eq_ix4_of_pixelDrop i b c (Finset.mem_filter.1 hi).2)

/-- A float sum over the two pixel axes from the zero word, read at `(b, c)`. -/
private theorem pixelSum_apply (f : FVec Ideal S16x8x512x512 .f32) (init : S_.Idx → Ideal .f32)
    (hinit : ∀ i, init i = FloatOps.ofBits .f32 0x00000000#32) (b : Fin 16) (c : Fin 8) :
    Host.reduceAdd f init Gen.reducesTo_S16x8x512x512_S16x8_d2_3 Gen.h_S_ (ix2 b c)
      = ∑ h : Fin 512, ∑ w : Fin 512, f (ix4 b c h w) := by
  rw [hostReduceAdd_apply, hinit, Ideal.ofBits_def, Ideal.ofBits_zero_f32]
  unfold Ideal.hostReduceAdd
  rw [zero_add]
  exact sum_filter_pixelDrop f b c

/-! ## The two probability sums -/

/-- The masked softmax entry: the probability where the pixel's label word is the class's, else zero. -/
private theorem v17_apply (x0 : (⟨S16x8x512x512, .f32⟩ : BufTy).Contents (Elt Ideal)) (x1 : (⟨S16x512x512, .i32⟩ : BufTy).Contents (Elt Ideal))
    (b : Fin 16) (c : Fin 8) (h w : Fin 512) :
    val_main_v17 (F := Ideal) x0 x1 (ix4 b c h w) = tpTerm (pix (ofArr4 x0) b h w) (ofArr3 x1 b h w) c := by
  rw [val_main_v17_apply, v16_apply, v10_apply]
  unfold tpTerm
  show _ = if x1 (ix3 b h w) = BitVec.ofNat 32 c.val then _ else _
  by_cases hl : x1 (ix3 b h w) = BitVec.ofNat 32 c.val
  · rw [if_pos hl, if_pos hl, select_one]
  · rw [if_neg hl, if_neg hl, select_zero, val_main_call0_v1_apply, val_main_call0_v0_apply, val_main_cst_2_apply,
      Ideal.ofBits_def, Ideal.ofBits_zero_f32]

/-- The probability mass of class `c` on the pixels of batch entry `b` labelled `c`. -/
theorem v18_apply (x0 : (⟨S16x8x512x512, .f32⟩ : BufTy).Contents (Elt Ideal)) (x1 : (⟨S16x512x512, .i32⟩ : BufTy).Contents (Elt Ideal))
    (b : Fin 16) (c : Fin 8) :
    val_main_v18 (F := Ideal) x0 x1 (ix2 b c) = tpS (ofArr4 x0) (ofArr3 x1) b c := by
  unfold val_main_v18
  refine (pixelSum_apply (val_main_v17 (F := Ideal) x0 x1) (val_main_cst_3 (F := Ideal))
    (fun i => val_main_cst_3_apply i) b c).trans ?_
  unfold tpS
  exact Finset.sum_congr rfl fun h _ => Finset.sum_congr rfl fun w _ => v17_apply x0 x1 b c h w

/-- The whole probability mass of class `c` in batch entry `b`. -/
theorem v19_apply (x0 : (⟨S16x8x512x512, .f32⟩ : BufTy).Contents (Elt Ideal)) (b : Fin 16) (c : Fin 8) :
    val_main_v19 (F := Ideal) x0 (ix2 b c) = psS (ofArr4 x0) b c := by
  unfold val_main_v19
  refine (pixelSum_apply (val_main_v10 (F := Ideal) x0) (val_main_cst_4 (F := Ideal))
    (fun i => val_main_cst_4_apply i) b c).trans ?_
  unfold psS
  exact Finset.sum_congr rfl fun h _ => Finset.sum_congr rfl fun w _ => v10_apply x0 b c h w

end Cert.ReferenceIdeal.Stats

end
-- ==== Proof.RefNll.lean ====
/-
  The reference's cross-entropy sum, read entry by entry: the log-softmax at `(b, k, h, w)` is the pixel's
  log-probability of class `k`; with every label in `[0, 8)` the take-along-the-class-axis reads it at the
  pixel's label (no index is negative, none is out of bounds), and the negated values summed over all pixels of
  all batch entries are the batch entries' negative log-likelihoods summed.
-/
import proofs.«424131_j11587821765242_1_alg».proof.Proof.RefRead
import proofs.«424131_j11587821765242_1_alg».proof.Proof.Spec
import Idealize.ShloMosaic.PureOps.Ideal.Laws
import Idealize.ShloMosaic.PureOps.Reduce
import Idealize.ShloMosaic.Lib.IdealHost

noncomputable section

open scoped BigOperators

namespace Cert.ReferenceIdeal.Stats

open Idealize.ShloMosaic Idealize.ShloMosaic.ValueIdx Cert.ReferenceIdeal Cert.ReferenceIdeal.ReadP Cert.DiceCE

/-- The word of the negative infinity denotes the least extended real. -/
private theorem negInf_word : Ideal.ofBits .f32 0xFF800000#32 = (⊥ : EReal) := by
  simp [Ideal.ofBits, Ideal.ieee]

private theorem red1 : S16x8x512x512.Reduces [1] S16x512x512 := by decide

/-- The pixel's index with the class coordinate inserted on axis 1. -/
private theorem lift1 (b : Fin 16) (h w : Fin 512) (k : Fin 8) : red1.lift (ix3 b h w) k = ix4 b k h w :=
  funext fun a => Fin.ext (by match a with | ⟨0, _⟩ => rfl | ⟨1, _⟩ => rfl | ⟨2, _⟩ => rfl | ⟨3, _⟩ => rfl)

/-- The per-pixel maximum of the reference's log-softmax is the largest of the eight scores. -/
private theorem call1_v0_apply (x0 : (⟨S16x8x512x512, .f32⟩ : BufTy).Contents (Elt Ideal)) (b : Fin 16) (h w : Fin 512) :
    val_main_call1_v0 (F := Ideal) x0 (ix3 b h w) = pmax (pix (ofArr4 x0) b h w) := by
  unfold val_main_call1_v0
  have e := Host.reduce_eq_fold_single (α := EReal) (FloatOps.maximumf (F := Ideal) (φ := .f32)) x0 (val_main_call1_cst (F := Ideal)) Gen.reducesTo_S16x8x512x512_S16x512x512_d1 red1 Gen.h_S_ (ix3 b h w)
  have hf : (x0 ∘ red1.lift (ix3 b h w)) = pix (ofArr4 x0) b h w := by
    funext k
    exact congrArg x0 (lift1 b h w k)
  rw [e, hf, val_main_call1_cst_apply, Ideal.ofBits_def, negInf_word]
  rfl

private theorem idx_v3_v4 (b : Fin 16) (k : Fin 8) (h w : Fin 512) :
    idx_main_call1_v3 (idx_main_call1_v4 (ix4 b k h w)) = ix3 b h w :=
  funext fun a => by match a with | ⟨0, _⟩ => rfl | ⟨1, _⟩ => rfl | ⟨2, _⟩ => rfl

private theorem idx_v8_v10 (b : Fin 16) (k : Fin 8) (h w : Fin 512) :
    idx_main_call1_v8 (idx_main_call1_v10 (ix4 b k h w)) = ix3 b h w :=
  funext fun a => by match a with | ⟨0, _⟩ => rfl | ⟨1, _⟩ => rfl | ⟨2, _⟩ => rfl

private theorem idx_v7 (b : Fin 16) (k : Fin 8) (h w : Fin 512) :
    idx_main_call1_v7 (ix3 b h w) k = ix4 b k h w :=
  funext fun a => by match a with | ⟨0, _⟩ => rfl | ⟨1, _⟩ => rfl | ⟨2, _⟩ => rfl | ⟨3, _⟩ => rfl

/-- The score less the pixel's largest. -/
private theorem call1_v5_apply (x0 : (⟨S16x8x512x512, .f32⟩ : BufTy).Contents (Elt Ideal)) (b : Fin 16) (k : Fin 8) (h w : Fin 512) :
    val_main_call1_v5 (F := Ideal) x0 (ix4 b k h w) = shifted (pix (ofArr4 x0) b h w) k := by
  rw [val_main_call1_v5_apply, val_main_call1_v4_apply, val_main_call1_v3_apply, idx_v3_v4, val_main_call1_v2_apply,
    val_main_call1_v1_apply, val_main_call1_cst_0_apply, call1_v0_apply, Ideal.ofBits_def, negInf_word,
    Ideal.maximumf_def, Ideal.subf_def, max_eq_right bot_le]
  rfl

/-- The sum of the pixel's eight exponentials. -/
private theorem call1_v7_apply' (x0 : (⟨S16x8x512x512, .f32⟩ : BufTy).Contents (Elt Ideal)) (b : Fin 16) (h w : Fin 512) :
    val_main_call1_v7 (F := Ideal) x0 (ix3 b h w) = sumexp (pix (ofArr4 x0) b h w) := by
  rw [val_main_call1_v7_apply, val_main_call1_cst_1_apply, Ideal.ofBits_def, Ideal.ofBits_zero_f32, zero_add]
  unfold sumexp
  refine Finset.sum_congr rfl fun k _ => ?_
  rw [idx_v7, val_main_call1_v6_apply, call1_v5_apply, Ideal.hostUnary_exp_def]
  rfl

/-- The log-softmax of class `k` at pixel `(b, h, w)`. -/
theorem v42_apply (x0 : (⟨S16x8x512x512, .f32⟩ : BufTy).Contents (Elt Ideal)) (b : Fin 16) (k : Fin 8) (h w : Fin 512) :
    val_main_v42 (F := Ideal) x0 (ix4 b k h w) = logp (pix (ofArr4 x0) b h w) k := by
  rw [val_main_v42_apply, call1_v5_apply, val_main_call1_v10_apply, val_main_call1_v9_apply, val_main_call1_v8_apply,
    idx_v8_v10, call1_v7_apply', Ideal.hostUnary_log_def, Ideal.subf_def]
  rfl

/-- A class's word is not negative, lies in `[0, 7]`, and read signed and clamped into `[0, 7]` is the class. -/
private theorem lbl_slt (k : Fin 8) : IntOp.cmpi .slt (BitVec.ofNat 32 k.val) 0#32 = 0#1 := by revert k; decide
private theorem lbl_ge (k : Fin 8) : IntOp.cmpi .sge (BitVec.ofNat 32 k.val) 0#32 = 1#1 := by revert k; decide
private theorem lbl_le (k : Fin 8) : IntOp.cmpi .sle (BitVec.ofNat 32 k.val) 7#32 = 1#1 := by revert k; decide
private theorem lbl_clamp (k : Fin 8) : min (BitVec.ofNat 32 k.val).toInt.toNat (8 - 1) = k.val := by revert k; decide

private theorem red4 : S16x1x512x512x1.Reduces [4] S16x1x512x512 := by decide

/-- The pixel's index with the unit coordinate inserted on axis 4. -/
private theorem lift4 (b : Fin 16) (h w : Fin 512) (k : Fin 1) : red4.lift (ix4 b (0 : Fin 1) h w) k = ix5 b (0 : Fin 1) h w (0 : Fin 1) :=
  funext fun a => Fin.ext (by
    match a with
    | ⟨0, _⟩ => rfl
    | ⟨1, _⟩ => rfl
    | ⟨2, _⟩ => rfl
    | ⟨3, _⟩ => rfl
    | ⟨4, _⟩ => show k.val = 0; omega)

private theorem idx43 (b : Fin 16) (h w : Fin 512) : idx_main_v43 (ix4 b (0 : Fin 1) h w) = ix3 b h w :=
  funext fun a => by match a with | ⟨0, _⟩ => rfl | ⟨1, _⟩ => rfl | ⟨2, _⟩ => rfl

/-- The reshape that appends a unit axis reads the same pixel. -/
private theorem idx_c2v5 (b : Fin 16) (h w : Fin 512) : idx_main_call2_v5 (ix5 b (0 : Fin 1) h w (0 : Fin 1)) = ix4 b (0 : Fin 1) h w :=
  funext fun a => Fin.ext (by
    have hb := b.isLt; have hh := h.isLt; have hw := w.isLt
    match a with
    | ⟨0, _⟩ => show ((((b.val * 1 + 0) * 512 + h.val) * 512 + w.val) * 1 + 0) / 262144 = b.val; omega
    | ⟨1, _⟩ => rfl
    | ⟨2, _⟩ => show ((((b.val * 1 + 0) * 512 + h.val) * 512 + w.val) * 1 + 0) / 512 % 512 = h.val; omega
    | ⟨3, _⟩ => show ((((b.val * 1 + 0) * 512 + h.val) * 512 + w.val) * 1 + 0) % 512 = w.val; omega)

/-- With the label a class's word the normalised index is the label: nothing is added to it. -/
private theorem call2_v4_at (x1 : (⟨S16x512x512, .i32⟩ : BufTy).Contents (Elt Ideal)) (b : Fin 16) (h w : Fin 512) (k : Fin 8)
    (hk : x1 (ix3 b h w) = BitVec.ofNat 32 k.val) :
    val_main_call2_v4 (F := Ideal) x1 (ix4 b (0 : Fin 1) h w) = BitVec.ofNat 32 k.val := by
  rw [val_main_call2_v4_apply, val_main_call2_v1_apply, val_main_v43_apply, idx43, hk, val_main_call2_v0_apply,
    val_main_call2_c_apply, lbl_slt, select_zero]

/-- So is the start index the take reads. -/
private theorem call2_v5_at (x1 : (⟨S16x512x512, .i32⟩ : BufTy).Contents (Elt Ideal)) (b : Fin 16) (h w : Fin 512) (k : Fin 8)
    (hk : x1 (ix3 b h w) = BitVec.ofNat 32 k.val) :
    val_main_call2_v5 (F := Ideal) x1 (ix5 b (0 : Fin 1) h w (0 : Fin 1)) = BitVec.ofNat 32 k.val := by
  rw [val_main_call2_v5_apply, idx_c2v5, call2_v4_at x1 b h w k hk]

/-- The start index lies in `[0, 7]`. -/
private theorem call2_v11_at (x1 : (⟨S16x512x512, .i32⟩ : BufTy).Contents (Elt Ideal)) (b : Fin 16) (h w : Fin 512) (k : Fin 8)
    (hk : x1 (ix3 b h w) = BitVec.ofNat 32 k.val) :
    val_main_call2_v11 (F := Ideal) x1 (ix5 b (0 : Fin 1) h w (0 : Fin 1)) = 1#1 := by
  rw [val_main_call2_v11_apply, val_main_call2_v7_apply, val_main_call2_v10_apply, call2_v5_at x1 b h w k hk,
    val_main_call2_v6_apply, val_main_call2_c_2_apply, val_main_call2_v9_apply, val_main_call2_v8_apply,
    val_main_call2_c_1_apply, lbl_ge, lbl_le]
  rfl

/-- A fold over a one-point range is one application of the operation. -/
private theorem fold_fin1 {α : Type} (op : α → α → α) [Std.Commutative op] [Std.Associative op] (c : α) (f : Fin 1 → α) :
    Finset.fold op c f Finset.univ = op (f 0) c := by
  rw [Finset.univ_unique, Finset.fold_singleton]
  rfl

/-- The in-bounds mask holds at every pixel whose label is a class's word. -/
private theorem call2_v12_at (x1 : (⟨S16x512x512, .i32⟩ : BufTy).Contents (Elt Ideal)) (b : Fin 16) (h w : Fin 512) (k : Fin 8)
    (hk : x1 (ix3 b h w) = BitVec.ofNat 32 k.val) :
    val_main_call2_v12 (F := Ideal) x1 (ix4 b (0 : Fin 1) h w) = 1#1 := by
  unfold val_main_call2_v12
  have e := Host.reduce_eq_fold_single (α := BitVec 1) (IntOp.andi (w := 1)) (val_main_call2_v11 (F := Ideal) x1)
    (val_main_call2_c_3 (F := Ideal)) Gen.reducesTo_S16x1x512x512x1_S16x1x512x512_d4 red4 Gen.h_S_ (ix4 b (0 : Fin 1) h w)
  rw [e]
  refine (fold_fin1 (IntOp.andi (w := 1)) _ (val_main_call2_v11 (F := Ideal) x1 ∘ red4.lift (ix4 b (0 : Fin 1) h w))).trans ?_
  show IntOp.andi (val_main_call2_v11 (F := Ideal) x1 (red4.lift (ix4 b (0 : Fin 1) h w) (0 : Fin 1))) _ = 1#1
  rw [lift4, call2_v11_at x1 b h w k hk, val_main_call2_c_3_apply]
  rfl

/-- The take's dimension numbers: batch axes 0, 2, 3 paired with themselves, the class axis collapsed and indexed. -/
private abbrev gd : GatherDims S16x8x512x512 S16x1x512x512x1 S16x1x512x512 :=
  gather_S16x8x512x512_S16x1x512x512x1_S16x1x512x512_n_1_023_023_1_4_1111

/-- The take along the class axis, read at pixel `(b, h, w)` whose start index is class `k`'s word: the operand at
    `(b, k, h, w)`. On a batch axis the operand's coordinate is the result's; on the class axis it is the start index
    read signed and clamped into `[0, 7]`. -/
private theorem gather_at {α : Type} (x : S16x8x512x512.Idx → α) (idx : IVec S16x1x512x512x1 32) (b : Fin 16) (h w : Fin 512) (k : Fin 8)
    (hk : idx (ix5 b (0 : Fin 1) h w (0 : Fin 1)) = BitVec.ofNat 32 k.val) :
    Host.gather gd x idx (ix4 b (0 : Fin 1) h w) = x (ix4 b k h w) := by
  unfold Host.gather
  congr 1
  funext a
  refine Fin.ext ?_
  show gd.start (ix4 b (0 : Fin 1) h w) idx a + gd.batchCoord (ix4 b (0 : Fin 1) h w) a + gd.offCoord (ix4 b (0 : Fin 1) h w) a
    = (ix4 b k h w a).val
  match a with
  | ⟨0, _⟩ =>
    have hm : (⟨0, by decide⟩ : Fin 4) ∈ gd.operandBatchingDims := by show _ ∈ ([0, 2, 3] : List (Fin 4)); decide
    rw [gd.start_batching _ _ _ hm, gd.offCoord_eq_zero _ _ (fun hh => ((gd.mem_sKept _).1 hh).2 hm), Nat.zero_add, Nat.add_zero]
    unfold GatherDims.batchCoord
    rw [dif_pos hm]
    rfl
  | ⟨1, _⟩ =>
    have hn : (⟨1, by decide⟩ : Fin 4) ∉ gd.operandBatchingDims := by show _ ∉ ([0, 2, 3] : List (Fin 4)); decide
    have hc : (⟨1, by decide⟩ : Fin 4) ∈ gd.collapsedSliceDims := by show _ ∈ ([1] : List (Fin 4)); decide
    have hs : (⟨1, by decide⟩ : Fin 4) ∈ gd.startIndexMap := by show _ ∈ ([1] : List (Fin 4)); decide
    rw [gd.batchCoord_eq_zero _ _ hn, gd.offCoord_eq_zero _ _ (fun hh => ((gd.mem_sKept _).1 hh).1 hc), Nat.add_zero]
    unfold GatherDims.start
    rw [dif_pos hs]
    have hsi : gd.siIdx (ix4 b (0 : Fin 1) h w) ⟨List.idxOf (⟨1, by decide⟩ : Fin 4) gd.startIndexMap,
        List.idxOf_lt_length_iff.2 hs⟩ = ix5 b (0 : Fin 1) h w (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi, hk]
    exact lbl_clamp k
  | ⟨2, _⟩ =>
    have hm : (⟨2, by decide⟩ : Fin 4) ∈ gd.operandBatchingDims := by show _ ∈ ([0, 2, 3] : List (Fin 4)); decide
    rw [gd.start_batching _ _ _ hm, gd.offCoord_eq_zero _ _ (fun hh => ((gd.mem_sKept _).1 hh).2 hm), Nat.zero_add, Nat.add_zero]
    unfold GatherDims.batchCoord
    rw [dif_pos hm]
    rfl
  | ⟨3, _⟩ =>
    have hm : (⟨3, by decide⟩ : Fin 4) ∈ gd.operandBatchingDims := by show _ ∈ ([0, 2, 3] : List (Fin 4)); decide
    rw [gd.start_batching _ _ _ hm, gd.offCoord_eq_zero _ _ (fun hh => ((gd.mem_sKept _).1 hh).2 hm), Nat.zero_add, Nat.add_zero]
    unfold GatherDims.batchCoord
    rw [dif_pos hm]
    rfl

/-- The negated log-probability at the label, as the specification's sum over the classes of which one is hit. -/
private theorem v45_at (x0 : (⟨S16x8x512x512, .f32⟩ : BufTy).Contents (Elt Ideal)) (x1 : (⟨S16x512x512, .i32⟩ : BufTy).Contents (Elt Ideal))
    (b : Fin 16) (h w : Fin 512) (k : Fin 8) (hk : x1 (ix3 b h w) = BitVec.ofNat 32 k.val) :
    val_main_v45 (F := Ideal) x0 x1 (ix4 b (0 : Fin 1) h w) = nllTerm (pix (ofArr4 x0) b h w) (ofArr3 x1 b h w) := by
  rw [val_main_v45_apply, val_main_v44_apply, call2_v12_at x1 b h w k hk, select_one]
  unfold val_main_call2_v13
  rw [gather_at _ _ b h w k (call2_v5_at x1 b h w k hk), v42_apply, Ideal.hostNegf_def, Ideal.negf_def]
  show _ = nllTerm (pix (ofArr4 x0) b h w) (x1 (ix3 b h w))
  rw [hk, nllTerm_of_class, zero_sub]

/-- An index of a `[16, 1, 512, 512]` array is its three coordinates off the unit axis. -/
private def idxEquiv4u : S16x1x512x512.Idx ≃ Fin 16 × Fin 512 × Fin 512 where
  toFun j := (j 0, j 2, j 3)
  invFun p := ix4 p.1 (0 : Fin 1) p.2.1 p.2.2
  left_inv j := by
    funext a
    match a with
    | ⟨0, _⟩ => rfl
    | ⟨1, _⟩ =>
      refine Fin.ext ?_
      have h1 : (j 1).val < 1 := (j 1).isLt
      show 0 = (j 1).val
      omega
    | ⟨2, _⟩ => rfl
    | ⟨3, _⟩ => rfl
  right_inv p := rfl

/-- A sum over such an array is the triple sum over the batch entries, the rows and the columns. -/
private theorem sum_idx4u {M : Type} [AddCommMonoid M] (f : S16x1x512x512.Idx → M) :
    ∑ j, f j = ∑ b : Fin 16, ∑ h : Fin 512, ∑ w : Fin 512, f (ix4 b (0 : Fin 1) h w) := by
  rw [← Equiv.sum_comp idxEquiv4u.symm f, Fintype.sum_prod_type]
  refine Finset.sum_congr rfl fun b _ => ?_
  rw [Fintype.sum_prod_type]
  rfl

/-- With every label the word of a class, the sum of the negated log-probabilities at the labels. -/
theorem v46_apply (x0 : (⟨S16x8x512x512, .f32⟩ : BufTy).Contents (Elt Ideal)) (x1 : (⟨S16x512x512, .i32⟩ : BufTy).Contents (Elt Ideal))
    (hy : ∀ (b : Fin 16) (h w : Fin 512), ∃ k : Fin 8, x1 (ix3 b h w) = BitVec.ofNat 32 k.val) :
    val_main_v46 (F := Ideal) x0 x1 ix0 = ∑ b : Fin 16, nllS (ofArr4 x0) (ofArr3 x1) b := by
  rw [val_main_v46_apply, val_main_cst_13_apply, Ideal.ofBits_def, Ideal.ofBits_zero_f32, zero_add, sum_idx4u]
  refine Finset.sum_congr rfl fun b _ => ?_
  unfold nllS
  refine Finset.sum_congr rfl fun h _ => Finset.sum_congr rfl fun w _ => ?_
  obtain ⟨k, hk⟩ := hy b h w
  exact v45_at x0 x1 b h w k hk

end Cert.ReferenceIdeal.Stats

end
-- ==== Proof.PreLabels.lean ====
/-
  What the precondition says of the labels: it is the conjunction of "every score is finite" and "every label
  is at least 0 and below 8" (signed 32-bit comparisons), so where it holds every label word is the word of one
  of the eight classes.
-/
import proofs.«424131_j11587821765242_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Labels

open Idealize.ShloMosaic Idealize.ShloMosaic.ValueIdx Cert.Pre_finite_inputs

/-- A rank-0 shape has exactly one index. -/
instance : Subsingleton S_.Idx := ⟨fun a b => funext fun d => d.elim0⟩

/-- A 32-bit word whose signed value lies in `[0, 8)` is the word of a natural number below 8: a nonnegative
    signed value is the unsigned value, which is then below 8 and is its own residue modulo `2 ^ 32`. -/
theorem word_of_range (v : BitVec 32) (h0 : (0#32 : BitVec 32).toInt ≤ v.toInt) (h8 : v.toInt < (8#32 : BitVec 32).toInt) :
    ∃ k : Fin 8, v = BitVec.ofNat 32 k.val := by
  have z0 : (0#32 : BitVec 32).toInt = 0 := by decide
  have z8 : (8#32 : BitVec 32).toInt = 8 := by decide
  rw [z0] at h0
  rw [z8] at h8
  have hlt := v.isLt
  have hv : v.toInt = (v.toNat : Int) := by
    rw [BitVec.toInt_eq_toNat_cond] at h0 h8 ⊢
    split at h0 <;> omega
  have hn : v.toNat < 8 := by omega
  refine ⟨⟨v.toNat, hn⟩, ?_⟩
  apply BitVec.eq_of_toNat_eq
  rw [BitVec.toNat_ofNat]
  show v.toNat = v.toNat % 2 ^ 32
  omega

/-- Where the precondition holds, every label word is the word of a class in `[0, 8)`. -/
theorem labels_in_range [Cert.Pre_finite_inputs.Facts] {F : FTy → Type} [FloatOps F] (x : FVec F S16x8x512x512 .f32) (y : IVec S16x512x512 32)
    (hpre : Cert.Pre_finite_inputs.fn (F := F) x y = fun _ => 1#1) (b : Fin 16) (h w : Fin 512) :
    ∃ k : Fin 8, y (ix3 b h w) = BitVec.ofNat 32 k.val := by
  -- the predicate at its one index: a conjunction of two "for all" clauses, each a reduction by `and` from 1
  have e := congrFun hpre ix0
  dsimp only [fn] at e
  -- the second clause (the one on the labels) is 1
  have e9 := (IntOp.andi_eq_one.1 e).2
  -- so its operand is 1 at every index, in particular at (b, h, w)
  have ei := Host.reduce_andi_all _ _ _ _ _ e9 (ix3 b h w)
  -- the operand there is the conjunction `0 ≤ y` and `y < 8`, both signed; the broadcast scalars read 0 and 8
  obtain ⟨hge, hlt⟩ := IntOp.andi_eq_one.1 ei
  exact word_of_range _ (IntOp.cmpi_sge.1 hge) (IntOp.cmpi_slt.1 hlt)

end Cert.Pre_finite_inputs.Labels

end
-- ==== Proof.Bridge.lean ====
/-
  The two programs end with the same loss, at the extended reals.  Both apply one function (`lossOf`) to four
  statistics: the kernel to its accumulators after the last tile, the reference to its sums over all pixels.  Entry
  by entry the statistics agree: each accumulator entry, 64 tiles of 8 rows added in order from zero, is the sum over
  the 512 rows the reference takes at once (sums of extended reals may be regrouped and reordered freely); and with
  every label the word of a class the reference's take-along-the-class-axis reads exactly the one class the kernel's
  label mask lets through, so the summed negative log-likelihoods agree too.
-/
import proofs.«424131_j11587821765242_1_alg».proof.Defs
import proofs.«424131_j11587821765242_1_alg».proof.Proof.KernelRun
import proofs.«424131_j11587821765242_1_alg».proof.Proof.KernelClosed
import proofs.«424131_j11587821765242_1_alg».proof.Proof.RefFinal
import proofs.«424131_j11587821765242_1_alg».proof.Proof.RefSoftmax
import proofs.«424131_j11587821765242_1_alg».proof.Proof.RefNll
import proofs.«424131_j11587821765242_1_alg».proof.Proof.PreLabels
import Idealize.ShloMosaic.Lib.IdealHost
import Idealize.ShloMosaic.Lib.ValueIdxRank1

noncomputable section

open scoped BigOperators

open Idealize.ShloMosaic Idealize.ShloMosaic.TcCoe Idealize.SL.Sem

namespace Cert.Proof.Bridge

open Idealize.ShloMosaic.ValueIdx Cert.DiceCE

/-- The reference's last stage is the loss of its four statistics. -/
theorem ref_lossOf {F : FTy → Type} [FloatOps F]
    (x0 : (⟨Cert.ReferenceIdeal.S16x8x512x512, .f32⟩ : BufTy).Contents (Elt F))
    (x1 : (⟨Cert.ReferenceIdeal.S16x512x512, .i32⟩ : BufTy).Contents (Elt F)) :
    Cert.ReferenceIdeal.ReadP.val_main_v50 (F := F) x0 x1
      = lossOf Cert.ReferenceIdeal.Gen.bcast_S_S16x8 Cert.ReferenceIdeal.Gen.slices_S16x8_S16x7_0_1
          Cert.ReferenceIdeal.Gen.reducesTo_S16x7_S_d0_1 Cert.ReferenceIdeal.Gen.h_S_
          (Cert.ReferenceIdeal.ReadP.val_main_v18 (F := F) x0 x1) (Cert.ReferenceIdeal.ReadP.val_main_v19 (F := F) x0)
          (Cert.ReferenceIdeal.ReadP.val_main_v22 (F := F) x1) (Cert.ReferenceIdeal.ReadP.val_main_v46 (F := F) x0 x1) :=
  rfl

/-- The sum of a `[16]` array over its one axis, from zero. -/
theorem sum16 (x : FVec Ideal Cert.KernelIdeal.S16 .f32) (i : Cert.KernelIdeal.S_.Idx) :
    Host.reduceAdd x (constant (F := Ideal) Cert.KernelIdeal.S_ .f32 0x00000000#32) Cert.KernelIdeal.Gen.reducesTo_S16_S_d0
      Cert.KernelIdeal.Gen.h_S_ i = ∑ b : Fin 16, x (ix1 b) := by
  rw [hostReduceAdd_apply, Ideal.hostReduceAdd_total Cert.KernelIdeal.Gen.reducesTo_S16_S_d0 (fun b => b.elim0)]
  show Ideal.ofBits .f32 0x00000000#32 + _ = _
  rw [Ideal.ofBits_zero_f32, zero_add]
  exact (Equiv.sum_comp (idxEquiv1 (n := 16)).symm x).symm

/-- THE TWO RESULTS AGREE: where every label is the word of a class, the reference's last stage of the argument
    arrays is the kernel's loss of its accumulators after the last tile. -/
theorem results_agree (m : (ℓ : Loc Cert.KernelIdeal.nD Cert.KernelIdeal.τ Cert.KernelIdeal.sig) → Buf (Elt Ideal) ℓ)
    (c : Dev Cert.KernelIdeal.nD)
    (hy : ∀ (b : Fin 16) (h w : Fin 512), ∃ k : Fin 8,
      m ((c.tc : Thread Cert.KernelIdeal.nD Cert.KernelIdeal.τ).loc Cert.KernelIdeal.main_arg1) (ix3 b h w) = BitVec.ofNat 32 k.val) :
    Cert.ReferenceIdeal.ReadP.val_main_v50 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Acc.result m c := by
  rw [ref_lossOf]
  unfold Cert.KernelIdeal.Acc.result
  have hA : Cert.ReferenceIdeal.ReadP.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = (Cert.KernelIdeal.Acc.last m c).1 := by
    funext j
    obtain ⟨b, k, rfl⟩ : ∃ (b : Fin 16) (k : Fin 8), j = ix2 b k := ⟨j 0, j 1, eq_ix2 j⟩
    rw [Cert.ReferenceIdeal.Stats.v18_apply, Cert.KernelIdeal.Closed.last1_apply]
  have hB : Cert.ReferenceIdeal.ReadP.val_main_v19 (F := Ideal)
      (m ((c.tc : Thread Cert.KernelIdeal.nD Cert.KernelIdeal.τ).loc Cert.KernelIdeal.main_arg0))
      = (Cert.KernelIdeal.Acc.last m c).2.1 := by
    funext j
    obtain ⟨b, k, rfl⟩ : ∃ (b : Fin 16) (k : Fin 8), j = ix2 b k := ⟨j 0, j 1, eq_ix2 j⟩
    rw [Cert.ReferenceIdeal.Stats.v19_apply, Cert.KernelIdeal.Closed.last2_apply]
  have hC : Cert.ReferenceIdeal.ReadP.val_main_v22 (F := Ideal)
      (m ((c.tc : Thread Cert.KernelIdeal.nD Cert.KernelIdeal.τ).loc Cert.KernelIdeal.main_arg1))
      = (Cert.KernelIdeal.Acc.last m c).2.2.1 := by
    funext j
    obtain ⟨b, k, rfl⟩ : ∃ (b : Fin 16) (k : Fin 8), j = ix2 b k := ⟨j 0, j 1, eq_ix2 j⟩
    rw [Cert.ReferenceIdeal.Stats.v22_apply, Cert.KernelIdeal.Closed.last3_apply]
  have hD : Cert.ReferenceIdeal.ReadP.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = Host.reduceAdd (Cert.KernelIdeal.Acc.last m c).2.2.2 (constant (F := Ideal) Cert.KernelIdeal.S_ .f32 0x00000000#32)
          Cert.KernelIdeal.Gen.reducesTo_S16_S_d0 Cert.KernelIdeal.Gen.h_S_ := by
    funext i
    obtain rfl : i = ix0 := eq_ix0 i
    rw [Cert.ReferenceIdeal.Stats.v46_apply _ _ hy, sum16]
    exact Finset.sum_congr rfl fun b _ => (Cert.KernelIdeal.Closed.last4_apply m c b).symm
  rw [hA, hB, hC, hD]

end Cert.Proof.Bridge

end
-- ==== Proof.lean ====
/-
  A dice + cross-entropy loss over scores `x : f32[16, 8, 512, 512]` (batch, class, row, column) and labels
  `y : i32[16, 512, 512]`, under the precondition "every score is finite and every label is in `[0, 8)`".

  The kernel streams the rows in 64 tiles of 8 through one fused pass: per pixel the softmax and log-softmax over
  the eight classes, the one-hot mask of the label against the class index, and four running sums kept across
  the grid — the probability mass on the labelled pixels, the whole probability mass and the label counts per
  batch entry and class, and the negative log-likelihood per batch entry — reset at the first tile; a few host
  operations turn the four sums into the loss.  The reference computes the softmax of the whole array, sums over
  all pixels at once, counts labels with integers, and reads the log-softmax at the label with a gather.

  Over the extended reals the two agree: sums may be regrouped (tile by tile, or all at once), a 32-bit count of
  at most 2¹⁸ ones is the number it counts, and with the label the word of a class the mask lets through exactly
  the class the gather reads.  What comes after the four sums is the same function in both programs and is never
  opened.  The ideal pass rewrote nothing, so `preserves` is `True`.
-/
import proofs.«424131_j11587821765242_1_alg».proof.Defs
import proofs.«424131_j11587821765242_1_alg».proof.Proof.Gen.Kernel
import proofs.«424131_j11587821765242_1_alg».proof.Proof.Gen.Kernel.Frame
import proofs.«424131_j11587821765242_1_alg».proof.Proof.Gen.KernelIdeal
import proofs.«424131_j11587821765242_1_alg».proof.Proof.Gen.KernelIdeal.Frame
import proofs.«424131_j11587821765242_1_alg».proof.Proof.Gen.ReferenceIdeal
import proofs.«424131_j11587821765242_1_alg».proof.Proof.Gen.Pre_finite_inputs
import proofs.«424131_j11587821765242_1_alg».proof.Proof.Bridge
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Stages.run (F := Ideal) m ρ)

/-- The two idealized programs, from memories that agree on the arguments, end with the same loss: the kernel's
    accumulators after the last tile and the reference's sums over all pixels are the same four statistics. -/
theorem algebraic : Cert.algebraic_KernelIdeal_ReferenceIdeal := by
  intro m ρ m' ρ' hpre hagree
  refine ⟨fun c => Cert.KernelIdeal.Acc.result m c, Cert.KernelIdeal.Acc.run (F := Ideal) m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.Proof.Bridge.results_agree m c
    (fun b hh w => Cert.Pre_finite_inputs.Labels.labels_in_range _ _ (hpre c) b hh w)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
